-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x3x224x224 : Shape := ⟨4, ![128, 3, 224, 224]⟩
abbrev S128x196 : Shape := ⟨2, ![128, 196]⟩
abbrev S768x384 : Shape := ⟨2, ![768, 384]⟩
abbrev S384 : Shape := ⟨1, ![384]⟩
abbrev S_ : Shape := ⟨0, ![]⟩

class Facts : Prop where
  bcast_S_S128x3x224x224 : S_.BroadcastsInDim S128x3x224x224 (![] : Fin 0 → Fin S128x3x224x224.rank)
  reducesTo_S128x3x224x224_S_d0_1_2_3 : S128x3x224x224.ReducesTo [0, 1, 2, 3] S_
  h_S_ : 0 < S_.numel
  bcast_S_S768x384 : S_.BroadcastsInDim S768x384 (![] : Fin 0 → Fin S768x384.rank)
  reducesTo_S768x384_S_d0_1 : S768x384.ReducesTo [0, 1] S_
  bcast_S_S384 : S_.BroadcastsInDim S384 (![] : Fin 0 → Fin S384.rank)
  reducesTo_S384_S_d0 : S384.ReducesTo [0] S_
  bcast_S_S128x196 : S_.BroadcastsInDim S128x196 (![] : Fin 0 → Fin S128x196.rank)
  reducesTo_S128x196_S_d0_1 : S128x196.ReducesTo [0, 1] S_

variable [Facts]

def fn_part1 {F : FTy → Type} [FloatOps F] (main_arg1 : IVec S128x196 32) (main_arg2 : IVec S128x196 32) (main_v13 : IVec S_ 1) (main_v15 : IVec S128x196 1) (main_c_5 : IVec S_ 1) : IVec S_ 1 :=
  let main_v16 : IVec S_ 1 := (fun x v => Host.reduce IntOp.andi x v reducesTo_S128x196_S_d0_1 h_S_) main_v15 main_c_5
  let main_v17 : IVec S_ 1 := andi main_v13 main_v16
  let main_c_6 : IVec S_ 32 := constantI S_ 32 208#32
  let main_v18 : IVec S128x196 32 := broadcastInDim S128x196 ![] bcast_S_S128x196 main_c_6
  let main_v19 : IVec S128x196 1 := cmpi .sle main_arg1 main_v18
  let main_c_7 : IVec S_ 1 := constantI S_ 1 1#1
  let main_v20 : IVec S_ 1 := (fun x v => Host.reduce IntOp.andi x v reducesTo_S128x196_S_d0_1 h_S_) main_v19 main_c_7
  let main_v21 : IVec S_ 1 := andi main_v17 main_v20
  let main_c_8 : IVec S_ 32 := constantI S_ 32 0#32
  let main_v22 : IVec S128x196 32 := broadcastInDim S128x196 ![] bcast_S_S128x196 main_c_8
  let main_v23 : IVec S128x196 1 := cmpi .sge main_arg2 main_v22
  let main_c_9 : IVec S_ 1 := constantI S_ 1 1#1
  let main_v24 : IVec S_ 1 := (fun x v => Host.reduce IntOp.andi x v reducesTo_S128x196_S_d0_1 h_S_) main_v23 main_c_9
  let main_v25 : IVec S_ 1 := andi main_v21 main_v24
  let main_c_10 : IVec S_ 32 := constantI S_ 32 208#32
  let main_v26 : IVec S128x196 32 := broadcastInDim S128x196 ![] bcast_S_S128x196 main_c_10
  let main_v27 : IVec S128x196 1 := cmpi .sle main_arg2 main_v26
  let main_c_11 : IVec S_ 1 := constantI S_ 1 1#1
  let main_v28 : IVec S_ 1 := (fun x v => Host.reduce IntOp.andi x v reducesTo_S128x196_S_d0_1 h_S_) main_v27 main_c_11
  let main_v29 : IVec S_ 1 := andi main_v25 main_v28
  main_v29

def fn {F : FTy → Type} [FloatOps F] (main_arg0 : FVec F S128x3x224x224 .f32) (main_arg1 : IVec S128x196 32) (main_arg2 : IVec S128x196 32) (main_arg3 : FVec F S768x384 .f32) (main_arg4 : FVec F S384 .f32) : IVec S_ 1 :=
  let main_v0 : FVec F S128x3x224x224 .f32 := Host.absf main_arg0
  let main_cst : FVec F S_ .f32 := constant S_ .f32 0x7F800000#32
  let main_v1 : FVec F S128x3x224x224 .f32 := broadcastInDim S128x3x224x224 ![] bcast_S_S128x3x224x224 main_cst
  let main_v2 : IVec S128x3x224x224 1 := cmpf .olt main_v0 main_v1
  let main_c : IVec S_ 1 := constantI S_ 1 1#1
  let main_v3 : IVec S_ 1 := (fun x v => Host.reduce IntOp.andi x v reducesTo_S128x3x224x224_S_d0_1_2_3 h_S_) main_v2 main_c
  let main_v4 : FVec F S768x384 .f32 := Host.absf main_arg3
  let main_cst_0 : FVec F S_ .f32 := constant S_ .f32 0x7F800000#32
  let main_v5 : FVec F S768x384 .f32 := broadcastInDim S768x384 ![] bcast_S_S768x384 main_cst_0
  let main_v6 : IVec S768x384 1 := cmpf .olt main_v4 main_v5
  let main_c_1 : IVec S_ 1 := constantI S_ 1 1#1
  let main_v7 : IVec S_ 1 := (fun x v => Host.reduce IntOp.andi x v reducesTo_S768x384_S_d0_1 h_S_) main_v6 main_c_1
  let main_v8 : IVec S_ 1 := andi main_v3 main_v7
  let main_v9 : FVec F S384 .f32 := Host.absf main_arg4
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_c_4 : IVec S_ 32 := constantI S_ 32 0#32
  let main_v14 : IVec S128x196 32 := broadcastInDim S128x196 ![] bcast_S_S128x196 main_c_4
  let main_v15 : IVec S128x196 1 := cmpi .sge main_arg1 main_v14
  let main_c_5 : IVec S_ 1 := constantI S_ 1 1#1
  fn_part1 (F := F) main_arg1 main_arg2 main_v13 main_v15 main_c_5
-- ==== Kernel.lean ====
abbrev S128x3x224x224 : Shape := ⟨4, ![128, 3, 224, 224]⟩
abbrev S128x196 : Shape := ⟨2, ![128, 196]⟩
abbrev S768x384 : Shape := ⟨2, ![768, 384]⟩
abbrev S384 : Shape := ⟨1, ![384]⟩
abbrev S_ : Shape := ⟨0, ![]⟩
abbrev S128x196x1 : Shape := ⟨3, ![128, 196, 1]⟩
abbrev S1x384 : Shape := ⟨2, ![1, 384]⟩
abbrev S128x196x384 : Shape := ⟨3, ![128, 196, 384]⟩
abbrev S1x3x224x224 : Shape := ⟨4, ![1, 3, 224, 224]⟩
abbrev S1x196x1 : Shape := ⟨3, ![1, 196, 1]⟩
abbrev S1x196x384 : Shape := ⟨3, ![1, 196, 384]⟩
abbrev S196x1 : Shape := ⟨2, ![196, 1]⟩
abbrev S1x16 : Shape := ⟨2, ![1, 16]⟩
abbrev S1x1x224 : Shape := ⟨3, ![1, 1, 224]⟩
abbrev S196x16 : Shape := ⟨2, ![196, 16]⟩
abbrev S196x16x1 : Shape := ⟨3, ![196, 16, 1]⟩
abbrev S196x16x224 : Shape := ⟨3, ![196, 16, 224]⟩
abbrev S3136x224 : Shape := ⟨2, ![3136, 224]⟩
abbrev S1x1x224x224 : Shape := ⟨4, ![1, 1, 224, 224]⟩
abbrev S224x224 : Shape := ⟨2, ![224, 224]⟩
abbrev S224x672 : Shape := ⟨2, ![224, 672]⟩
abbrev S3136x672 : Shape := ⟨2, ![3136, 672]⟩
abbrev S196x48x224 : Shape := ⟨3, ![196, 48, 224]⟩
abbrev S196x48x16 : Shape := ⟨3, ![196, 48, 16]⟩
abbrev S196x768 : Shape := ⟨2, ![196, 768]⟩
abbrev S196x384 : Shape := ⟨2, ![196, 384]⟩
abbrev S128x196x2 : Shape := ⟨3, ![128, 196, 2]⟩

abbrev nBuf : Space → Nat
  | .hbm => 29
  | .vmem => 10
  | .smem => 0
  | _ => 0

abbrev bufTy : (tb : Table) → Fin (tcTables nBuf tb) → BufTy
  | .hbm, ⟨0, _⟩ => ⟨S128x3x224x224, .f32⟩
  | .hbm, ⟨1, _⟩ => ⟨S128x196, .i32⟩
  | .hbm, ⟨2, _⟩ => ⟨S128x196, .i32⟩
  | .hbm, ⟨3, _⟩ => ⟨S768x384, .f32⟩
  | .hbm, ⟨4, _⟩ => ⟨S384, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S128x196, .i32⟩
  | .hbm, ⟨9, _⟩ => ⟨S128x196, .i32⟩
  | .hbm, ⟨10, _⟩ => ⟨S_, .i32⟩
  | .hbm, ⟨11, _⟩ => ⟨S128x196, .i32⟩
  | .hbm, ⟨12, _⟩ => ⟨S128x196, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S128x196, .i32⟩
  | .hbm, ⟨17, _⟩ => ⟨S128x196, .i32⟩
  | .hbm, ⟨18, _⟩ => ⟨S_, .i32⟩
  | .hbm, ⟨19, _⟩ => ⟨S128x196, .i32⟩
  | .hbm, ⟨20, _⟩ => ⟨S128x196, .i32⟩
  | .hbm, ⟨21, _⟩ => ⟨S128x196x1, .i32⟩
  | .hbm, ⟨22, _⟩ => ⟨S128x196x1, .i32⟩
  | .hbm, ⟨23, _⟩ => ⟨S768x384, .bf16⟩
  | .hbm, ⟨24, _⟩ => ⟨S1x384, .f32⟩
  | .hbm, ⟨25, _⟩ => ⟨S128x196x384, .f32⟩
  | .hbm, ⟨26, _⟩ => ⟨S128x196x1, .i32⟩
  | .hbm, ⟨27, _⟩ => ⟨S128x196x1, .i32⟩
  | .hbm, ⟨28, _⟩ => ⟨S128x196x2, .i32⟩
  | .local _ .vmem, ⟨0, _⟩ => ⟨S1x3x224x224, .f32⟩
  | .local _ .vmem, ⟨1, _⟩ => ⟨S1x3x224x224, .f32⟩
  | .local _ .vmem, ⟨2, _⟩ => ⟨S1x196x1, .i32⟩
  | .local _ .vmem, ⟨3, _⟩ => ⟨S1x196x1, .i32⟩
  | .local _ .vmem, ⟨4, _⟩ => ⟨S1x196x1, .i32⟩
  | .local _ .vmem, ⟨5, _⟩ => ⟨S1x196x1, .i32⟩
  | .local _ .vmem, ⟨6, _⟩ => ⟨S768x384, .bf16⟩
  | .local _ .vmem, ⟨7, _⟩ => ⟨S1x384, .f32⟩
  | .local _ .vmem, ⟨8, _⟩ => ⟨S1x196x384, .f32⟩
  | .local _ .vmem, ⟨9, _⟩ => ⟨S1x196x384, .f32⟩
  | _, _ => ⟨S128x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_c_1 : Ref sig .tc := ⟨.hbm, 13, rfl⟩
abbrev main_c_2 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x196x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x196x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x196x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S128x196 : S_.BroadcastsInDim S128x196 (![] : Fin 0 → Fin S128x196.rank)
  shapeCasts_S128x196_S128x196x1 : S128x196.ShapeCasts S128x196x1
  bitsLt_bf16_f32 : FTy.bits .bf16 < FTy.bits .f32
  shapeCasts_S384_S1x384 : S384.ShapeCasts S1x384
  inb_S1x196x1_S1x196x1_0_0_0 : ∀ a, (![0, 0, 0] : Fin 3 → Nat) a + S1x196x1.size a ≤ S1x196x1.size a
  h_S1x196x1 : 0 < S1x196x1.numel
  shapeCasts_S1x196x1_S196x1 : S1x196x1.ShapeCasts S196x1
  iota_S1x16_d1_w32 : S1x16.Iotas .tc 32 [1]
  iota_S1x1x224_d2_w32 : S1x1x224.Iotas .tc 32 [2]
  broadcasts_S196x1_S196x16 : S196x1.Broadcasts S196x16
  broadcasts_S1x16_S196x16 : S1x16.Broadcasts S196x16
  shapeCasts_S196x16_S196x16x1 : S196x16.ShapeCasts S196x16x1
  broadcasts_S196x16x1_S196x16x224 : S196x16x1.Broadcasts S196x16x224
  broadcasts_S1x1x224_S196x16x224 : S1x1x224.Broadcasts S196x16x224
  natLt_1_32 : 1 < 32
  shapeCasts_S196x16x224_S3136x224 : S196x16x224.ShapeCasts S3136x224
  inb_S1x3x224x224_S1x1x224x224_0_0_0_0 : ∀ a, (![0, 0, 0, 0] : Fin 4 → Nat) a + S1x1x224x224.size a ≤ S1x3x224x224.size a
  h_S1x1x224x224 : 0 < S1x1x224x224.numel
  shapeCasts_S1x1x224x224_S224x224 : S1x1x224x224.ShapeCasts S224x224
  inb_S1x3x224x224_S1x1x224x224_0_1_0_0 : ∀ a, (![0, 1, 0, 0] : Fin 4 → Nat) a + S1x1x224x224.size a ≤ S1x3x224x224.size a
  inb_S1x3x224x224_S1x1x224x224_0_2_0_0 : ∀ a, (![0, 2, 0, 0] : Fin 4 → Nat) a + S1x1x224x224.size a ≤ S1x3x224x224.size a
  concatenates_S224x224_S224x224_S224x224_S224x672_d1 : Shape.Concatenates [S224x224, S224x224, S224x224] S224x672 1
  slices_S3136x672_o0_0_S3136x224 : S3136x672.Slices ![0, 0] S3136x224
  shapeCasts_S3136x224_S196x16x224 : S3136x224.ShapeCasts S196x16x224
  slices_S3136x672_o0_224_S3136x224 : S3136x672.Slices ![0, 224] S3136x224
  slices_S3136x672_o0_448_S3136x224 : S3136x672.Slices ![0, 448] S3136x224
  concatenates_S196x16x224_S196x16x224_S196x16x224_S196x48x224_d1 : Shape.Concatenates [S196x16x224, S196x16x224, S196x16x224] S196x48x224 1
  shapeCasts_S196x48x16_S196x768 : S196x48x16.ShapeCasts S196x768
  inb_S768x384_S768x384_0_0 : ∀ a, (![0, 0] : Fin 2 → Nat) a + S768x384.size a ≤ S768x384.size a
  h_S768x384 : 0 < S768x384.numel
  shapeCasts_S768x384_S768x384 : S768x384.ShapeCasts S768x384
  inb_S1x384_S1x384_0_0 : ∀ a, (![0, 0] : Fin 2 → Nat) a + S1x384.size a ≤ S1x384.size a
  h_S1x384 : 0 < S1x384.numel
  shapeCasts_S1x384_S384 : S1x384.ShapeCasts S384
  broadcasts_S1x384_S196x384 : S1x384.Broadcasts S196x384
  inb_S1x196x384_S1x196x384_0_0_0 : ∀ a, (![0, 0, 0] : Fin 3 → Nat) a + S1x196x384.size a ≤ S1x196x384.size a
  h_S1x196x384 : 0 < S1x196x384.numel
  shapeCasts_S1x196x384_S196x384 : S1x196x384.ShapeCasts S196x384
  shapeCasts_S196x384_S1x196x384 : S196x384.ShapeCasts S1x196x384
  bcast_S128x196_S128x196x1_0_1 : S128x196.BroadcastsInDim S128x196x1 (![0, 1] : Fin 2 → Fin S128x196x1.rank)
  concatenates_S128x196x1_S128x196x1_S128x196x2_d2 : Shape.Concatenates [S128x196x1, S128x196x1] S128x196x2 2
  dot_S3136x224_S224x672_S3136x672_1_0_0_1_n_n_wf : DotDims.WF S3136x224 S224x672 S3136x672 [1] [0] [0] [1] [] []
  dot_S196x48x224_S196x16x224_S196x48x16_2_2_1_1_0_0_wf : DotDims.WF S196x48x224 S196x16x224 S196x48x16 [2] [2] [1] [1] [0] [0]
  dot_S196x768_S768x384_S196x384_1_0_0_1_n_n_wf : DotDims.WF S196x768 S768x384 S196x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x224x224.size a ≤ S128x3x224x224.size a
  hwx0_0 : ∀ i : grid0.Coords, EltTy.bits .f32 = 32 ∨ (Rect.block (s := S128x3x224x224) S1x3x224x224.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x196x1.size a ≤ S128x196x1.size a
  hwx0_1 : ∀ i : grid0.Coords, EltTy.bits .i32 = 32 ∨ (Rect.block (s := S128x196x1) S1x196x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x196x1.size a ≤ S128x196x1.size a
  hwx0_2 : ∀ i : grid0.Coords, EltTy.bits .i32 = 32 ∨ (Rect.block (s := S128x196x1) S1x196x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x384.size a ≤ S768x384.size a
  hwx0_3 : ∀ i : grid0.Coords, EltTy.bits .bf16 = 32 ∨ (Rect.block (s := S768x384) S768x384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x196x384.size a ≤ S128x196x384.size a
  hwx0_5 : ∀ i : grid0.Coords, EltTy.bits .f32 = 32 ∨ (Rect.block (s := S128x196x384) S1x196x384.size (cc0_transform_5 i) (hinb0_5 i)).WholeWords (EltTy.packing .f32)

variable [Facts₀]

def dot_S3136x224_S224x672_S3136x672_1_0_0_1_n_n : DotDims S3136x224 S224x672 S3136x672 where
  lhsContracting := [1]
  rhsContracting := [0]
  lhsNonContracting := [0]
  rhsNonContracting := [1]
  lhsBatch := []
  rhsBatch := []
  wf := dot_S3136x224_S224x672_S3136x672_1_0_0_1_n_n_wf
def dot_S196x48x224_S196x16x224_S196x48x16_2_2_1_1_0_0 : DotDims S196x48x224 S196x16x224 S196x48x16 where
  lhsContracting := [2]
  rhsContracting := [2]
  lhsNonContracting := [1]
  rhsNonContracting := [1]
  lhsBatch := [0]
  rhsBatch := [0]
  wf := dot_S196x48x224_S196x16x224_S196x48x16_2_2_1_1_0_0_wf
def dot_S196x768_S768x384_S196x384_1_0_0_1_n_n : DotDims S196x768 S768x384 S196x384 where
  lhsContracting := [1]
  rhsContracting := [0]
  lhsNonContracting := [0]
  rhsNonContracting := [1]
  lhsBatch := []
  rhsBatch := []
  wf := dot_S196x768_S768x384_S196x384_1_0_0_1_n_n_wf

abbrev win0_0 : Pipeline.Window sig grid0 :=
  Pipeline.Window.ofSpec (Memref.whole main_arg0) S1x3x224x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x196x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x196x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S768x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x196x384.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x3x224x224 : Shape := ⟨4, ![128, 3, 224, 224]⟩
abbrev S128x196 : Shape := ⟨2, ![128, 196]⟩
abbrev S768x384 : Shape := ⟨2, ![768, 384]⟩
abbrev S384 : Shape := ⟨1, ![384]⟩
abbrev S16 : Shape := ⟨1, ![16]⟩
abbrev S16x1 : Shape := ⟨2, ![16, 1]⟩
abbrev S1x16 : Shape := ⟨2, ![1, 16]⟩
abbrev S_ : Shape := ⟨0, ![]⟩
abbrev S16x16 : Shape := ⟨2, ![16, 16]⟩
abbrev S256 : Shape := ⟨1, ![256]⟩
abbrev S128x196x1 : Shape := ⟨3, ![128, 196, 1]⟩
abbrev S1x1x256 : Shape := ⟨3, ![1, 1, 256]⟩
abbrev S128x196x256 : Shape := ⟨3, ![128, 196, 256]⟩
abbrev S3 : Shape := ⟨1, ![3]⟩
abbrev S128x196x1x256 : Shape := ⟨4, ![128, 196, 1, 256]⟩
abbrev S1x1x3x1 : Shape := ⟨4, ![1, 1, 3, 1]⟩
abbrev S128x196x3x256 : Shape := ⟨4, ![128, 196, 3, 256]⟩
abbrev S128x196x768 : Shape := ⟨3, ![128, 196, 768]⟩
abbrev S128x150528 : Shape := ⟨2, ![128, 150528]⟩
abbrev S128x196x768x1 : Shape := ⟨4, ![128, 196, 768, 1]⟩
abbrev S128x196x384 : Shape := ⟨3, ![128, 196, 384]⟩
abbrev S1x1x384 : Shape := ⟨3, ![1, 1, 384]⟩
abbrev S128x196x2 : Shape := ⟨3, ![128, 196, 2]⟩

abbrev nBuf : Space → Nat
  | .hbm => 52
  | .vmem => 0
  | .smem => 0
  | _ => 0

abbrev bufTy : (tb : Table) → Fin (tcTables nBuf tb) → BufTy
  | .hbm, ⟨0, _⟩ => ⟨S128x3x224x224, .f32⟩
  | .hbm, ⟨1, _⟩ => ⟨S128x196, .i32⟩
  | .hbm, ⟨2, _⟩ => ⟨S128x196, .i32⟩
  | .hbm, ⟨3, _⟩ => ⟨S768x384, .f32⟩
  | .hbm, ⟨4, _⟩ => ⟨S384, .f32⟩
  | .hbm, ⟨5, _⟩ => ⟨S16, .i32⟩
  | .hbm, ⟨6, _⟩ => ⟨S16x1, .i32⟩
  | .hbm, ⟨7, _⟩ => ⟨S16, .i32⟩
  | .hbm, ⟨8, _⟩ => ⟨S1x16, .i32⟩
  | .hbm, ⟨9, _⟩ => ⟨S_, .i32⟩
  | .hbm, ⟨10, _⟩ => ⟨S16x1, .i32⟩
  | .hbm, ⟨11, _⟩ => ⟨S16x1, .i32⟩
  | .hbm, ⟨12, _⟩ => ⟨S16x16, .i32⟩
  | .hbm, ⟨13, _⟩ => ⟨S16x16, .i32⟩
  | .hbm, ⟨14, _⟩ => ⟨S16x16, .i32⟩
  | .hbm, ⟨15, _⟩ => ⟨S256, .i32⟩
  | .hbm, ⟨16, _⟩ => ⟨S_, .i32⟩
  | .hbm, ⟨17, _⟩ => ⟨S128x196, .i32⟩
  | .hbm, ⟨18, _⟩ => ⟨S128x196, .i32⟩
  | .hbm, ⟨19, _⟩ => ⟨S128x196, .i32⟩
  | .hbm, ⟨20, _⟩ => ⟨S128x196x1, .i32⟩
  | .hbm, ⟨21, _⟩ => ⟨S1x1x256, .i32⟩
  | .hbm, ⟨22, _⟩ => ⟨S128x196x256, .i32⟩
  | .hbm, ⟨23, _⟩ => ⟨S128x196x256, .i32⟩
  | .hbm, ⟨24, _⟩ => ⟨S128x196x256, .i32⟩
  | .hbm, ⟨25, _⟩ => ⟨S3, .i32⟩
  | .hbm, ⟨26, _⟩ => ⟨S_, .i32⟩
  | .hbm, ⟨27, _⟩ => ⟨S3, .i32⟩
  | .hbm, ⟨28, _⟩ => ⟨S3, .i32⟩
  | .hbm, ⟨29, _⟩ => ⟨S128x196x1x256, .i32⟩
  | .hbm, ⟨30, _⟩ => ⟨S1x1x3x1, .i32⟩
  | .hbm, ⟨31, _⟩ => ⟨S128x196x3x256, .i32⟩
  | .hbm, ⟨32, _⟩ => ⟨S128x196x3x256, .i32⟩
  | .hbm, ⟨33, _⟩ => ⟨S128x196x3x256, .i32⟩
  | .hbm, ⟨34, _⟩ => ⟨S128x196x768, .i32⟩
  | .hbm, ⟨35, _⟩ => ⟨S128x150528, .f32⟩
  | .hbm, ⟨36, _⟩ => ⟨S_, .i32⟩
  | .hbm, ⟨37, _⟩ => ⟨S128x196x768, .i32⟩
  | .hbm, ⟨38, _⟩ => ⟨S128x196x768, .i1⟩
  | .hbm, ⟨39, _⟩ => ⟨S_, .i32⟩
  | .hbm, ⟨40, _⟩ => ⟨S128x196x768, .i32⟩
  | .hbm, ⟨41, _⟩ => ⟨S128x196x768, .i32⟩
  | .hbm, ⟨42, _⟩ => ⟨S128x196x768, .i32⟩
  | .hbm, ⟨43, _⟩ => ⟨S128x196x768x1, .i32⟩
  | .hbm, ⟨44, _⟩ => ⟨S128x196x768, .f32⟩
  | .hbm, ⟨45, _⟩ => ⟨S128x196x384, .f32⟩
  | .hbm, ⟨46, _⟩ => ⟨S1x1x384, .f32⟩
  | .hbm, ⟨47, _⟩ => ⟨S128x196x384, .f32⟩
  | .hbm, ⟨48, _⟩ => ⟨S128x196x384, .f32⟩
  | .hbm, ⟨49, _⟩ => ⟨S128x196x1, .i32⟩
  | .hbm, ⟨50, _⟩ => ⟨S128x196x1, .i32⟩
  | .hbm, ⟨51, _⟩ => ⟨S128x196x2, .i32⟩
  | _, _ => ⟨S128x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_2 : Ref sig .tc := ⟨.hbm, 36, rfl⟩
abbrev main_v28 : Ref sig .tc := ⟨.hbm, 37, rfl⟩
abbrev main_v29 : Ref sig .tc := ⟨.hbm, 38, rfl⟩
abbrev main_c_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]

class Facts₀ : Prop where
  bcast_S16_S16x1_0 : S16.BroadcastsInDim S16x1 (![0] : Fin 1 → Fin S16x1.rank)
  bcast_S16_S1x16_1 : S16.BroadcastsInDim S1x16 (![1] : Fin 1 → Fin S1x16.rank)
  bcast_S_S16x1 : S_.BroadcastsInDim S16x1 (![] : Fin 0 → Fin S16x1.rank)
  bcast_S16x1_S16x16_0_1 : S16x1.BroadcastsInDim S16x16 (![0, 1] : Fin 2 → Fin S16x16.rank)
  bcast_S1x16_S16x16_0_1 : S1x16.BroadcastsInDim S16x16 (![0, 1] : Fin 2 → Fin S16x16.rank)
  shapeCasts_S16x16_S256 : S16x16.ShapeCasts S256
  bcast_S_S128x196 : S_.BroadcastsInDim S128x196 (![] : Fin 0 → Fin S128x196.rank)
  bcast_S128x196_S128x196x1_0_1 : S128x196.BroadcastsInDim S128x196x1 (![0, 1] : Fin 2 → Fin S128x196x1.rank)
  bcast_S256_S1x1x256_2 : S256.BroadcastsInDim S1x1x256 (![2] : Fin 1 → Fin S1x1x256.rank)
  bcast_S128x196x1_S128x196x256_0_1_2 : S128x196x1.BroadcastsInDim S128x196x256 (![0, 1, 2] : Fin 3 → Fin S128x196x256.rank)
  bcast_S1x1x256_S128x196x256_0_1_2 : S1x1x256.BroadcastsInDim S128x196x256 (![0, 1, 2] : Fin 3 → Fin S128x196x256.rank)
  bcast_S_S3 : S_.BroadcastsInDim S3 (![] : Fin 0 → Fin S3.rank)
  bcast_S128x196x256_S128x196x1x256_0_1_3 : S128x196x256.BroadcastsInDim S128x196x1x256 (![0, 1, 3] : Fin 3 → Fin S128x196x1x256.rank)
  bcast_S3_S1x1x3x1_2 : S3.BroadcastsInDim S1x1x3x1 (![2] : Fin 1 → Fin S1x1x3x1.rank)
  bcast_S128x196x1x256_S128x196x3x256_0_1_2_3 : S128x196x1x256.BroadcastsInDim S128x196x3x256 (![0, 1, 2, 3] : Fin 4 → Fin S128x196x3x256.rank)
  bcast_S1x1x3x1_S128x196x3x256_0_1_2_3 : S1x1x3x1.BroadcastsInDim S128x196x3x256 (![0, 1, 2, 3] : Fin 4 → Fin S128x196x3x256.rank)
  shapeCasts_S128x196x3x256_S128x196x768 : S128x196x3x256.ShapeCasts S128x196x768
  shapeCasts_S128x3x224x224_S128x150528 : S128x3x224x224.ShapeCasts S128x150528
  bcast_S_S128x196x768 : S_.BroadcastsInDim S128x196x768 (![] : Fin 0 → Fin S128x196x768.rank)
  bcast_S128x196x768_S128x196x768x1_0_1_2 : S128x196x768.BroadcastsInDim S128x196x768x1 (![0, 1, 2] : Fin 3 → Fin S128x196x768x1.rank)
  bcast_S384_S1x1x384_2 : S384.BroadcastsInDim S1x1x384 (![2] : Fin 1 → Fin S1x1x384.rank)
  bcast_S1x1x384_S128x196x384_0_1_2 : S1x1x384.BroadcastsInDim S128x196x384 (![0, 1, 2] : Fin 3 → Fin S128x196x384.rank)
  concatenates_S128x196x1_S128x196x1_S128x196x2_d2 : Shape.Concatenates [S128x196x1, S128x196x1] S128x196x2 2
  gather_S128x150528_S128x196x768x1_S128x196x768_n_1_0_0_1_3_11_wf : GatherDims.WF S128x150528 S128x196x768x1 S128x196x768 [] [1] [0] [1] [0] 3 ![1, 1]
  dot_S128x196x768_S768x384_S128x196x384_2_0_01_1_n_n_wf : DotDims.WF S128x196x768 S768x384 S128x196x384 [2] [0] [0, 1] [1] [] []

variable [Facts₀]

def gather_S128x150528_S128x196x768x1_S128x196x768_n_1_0_0_1_3_11 : GatherDims S128x150528 S128x196x768x1 S128x196x768 where
  offsetDims := []
  collapsedSliceDims := [1]
  operandBatchingDims := [0]
  startIndicesBatchingDims := [0]
  startIndexMap := [1]
  indexVectorDim := 3
  sliceSizes := ![1, 1]
  wf := gather_S128x150528_S128x196x768x1_S128x196x768_n_1_0_0_1_3_11_wf
def dot_S128x196x768_S768x384_S128x196x384_2_0_01_1_n_n : DotDims S128x196x768 S768x384 S128x196x384 where
  lhsContracting := [2]
  rhsContracting := [0]
  lhsNonContracting := [0, 1]
  rhsNonContracting := [1]
  lhsBatch := []
  rhsBatch := []
  wf := dot_S128x196x768_S768x384_S128x196x384_2_0_01_1_n_n_wf

class Facts : Prop extends Facts₀ where

variable [Facts]
-- ==== Proof.PreRange.lean ====
/-
  What the precondition says of the two offset arrays, and the clamp that it makes the identity.
-/
import proofs.«402038_j1297080123683_2_alg».proof.Pre_finite_inputs
import proofs.«402038_j1297080123683_2_alg».proof.Proof.Gen.Pre_finite_inputs
import Idealize.ShloMosaic.PureOps.Ideal.Laws
import Idealize.ShloMosaic.Lib.ValueIdx
import Idealize.ShloMosaic.Lib.ReduceAll
import Idealize.ShloMosaic.Lib.StableHlo.Predicate

noncomputable section

namespace Cert.PatchPre

open Idealize.ShloMosaic Idealize.ShloMosaic.ValueIdx Cert.Pre_finite_inputs

/-- A word that is signed-at-least 0 and signed-at-most 208 has unsigned value at most 208: a nonnegative signed value is the
    unsigned value, and a word with the top bit set reads negative. -/
private theorem word_range (w : BitVec 32) (h0 : IntOp.cmpi .sge w 0#32 = 1#1) (h1 : IntOp.cmpi .sle w 208#32 = 1#1) :
    w.toNat ≤ 208 := by
  simp only [IntOp.cmpi, BitVec.sle, StableHlo.Predicate.ofBool_eq_one_iff, decide_eq_true_eq] at h0 h1
  have e0 : (0#32 : BitVec 32).toInt = 0 := by decide
  have e1 : (208#32 : BitVec 32).toInt = 208 := by decide
  rw [e0] at h0
  rw [e1] at h1
  have hlt := w.isLt
  rw [BitVec.toInt_eq_toNat_cond] at h0 h1
  split at h0 <;> omega

/-- One range test of the precondition read at an index: the all-reduction by conjunction of a compare against a broadcast
    scalar that came out 1 says the compare holds at every index. -/
private theorem all_cmp [Cert.Pre_finite_inputs.Facts] (p : CmpIPredicate) (v : IVec S128x196 32) (c : BitVec 32)
    (init : IVec S_ 1)
    (e : Host.reduce IntOp.andi (cmpi p v (broadcastInDim S128x196 ![] Facts.bcast_S_S128x196 (constantI S_ 32 c))) init
      Facts.reducesTo_S128x196_S_d0_1 Facts.h_S_ ix0 = 1#1) (i : S128x196.Idx) : IntOp.cmpi p (v i) c = 1#1 := by
  -- the rank-0 shape has exactly one index
  haveI : Subsingleton S_.Idx := ⟨fun _ _ => funext fun d => d.elim0⟩
  have hi := Host.reduce_andi_all _ init Facts.reducesTo_S128x196_S_d0_1 Facts.h_S_ ix0 e i
  have hb : broadcastInDim S128x196 ![] Facts.bcast_S_S128x196 (constantI S_ 32 c) i = c :=
    StableHlo.Predicate.bcast_scalar Facts.bcast_S_S128x196 Facts.h_S_ (constantI S_ 32 c) i
  have hc : cmpi p v (broadcastInDim S128x196 ![] Facts.bcast_S_S128x196 (constantI S_ 32 c)) i
      = IntOp.cmpi p (v i) (broadcastInDim S128x196 ![] Facts.bcast_S_S128x196 (constantI S_ 32 c) i) := rfl
  rw [hc, hb] at hi
  exact hi

/-- Under the precondition every entry of ys and of xs is a word in [0, 208]. -/
theorem range_of_pre [Cert.Pre_finite_inputs.Facts] (x : FVec Ideal S128x3x224x224 .f32) (ys xs : IVec S128x196 32)
    (W : FVec Ideal S768x384 .f32) (b : FVec Ideal S384 .f32)
    (h : Cert.Pre_finite_inputs.fn (F := Ideal) x ys xs W b = fun _ => 1#1) :
    (∀ i, (ys i).toNat ≤ 208) ∧ (∀ i, (xs i).toNat ≤ 208) := by
  have h0 := congrFun h ix0
  dsimp only [fn, fn_part1] at h0
  -- the value is a conjunction of five tests, the last four being the range tests
  obtain ⟨h0, hx1⟩ := IntOp.andi_eq_one.1 h0
  obtain ⟨h0, hx0⟩ := IntOp.andi_eq_one.1 h0
  obtain ⟨h0, hy1⟩ := IntOp.andi_eq_one.1 h0
  obtain ⟨_, hy0⟩ := IntOp.andi_eq_one.1 h0
  exact ⟨fun i => word_range (ys i) (all_cmp .sge ys 0#32 _ hy0 i) (all_cmp .sle ys 208#32 _ hy1 i),
    fun i => word_range (xs i) (all_cmp .sge xs 0#32 _ hx0 i) (all_cmp .sle xs 208#32 _ hx1 i)⟩

/-- A word in [0, 208] is its own clamp to [0, 208], in the order the kernel's program spells the clamp. -/
theorem clip_word (w : BitVec 32) (hw : w.toNat ≤ 208) : IntOp.minsi 208#32 (IntOp.maxsi 0#32 w) = w := by
  have hti : w.toInt = w.toNat := StableHlo.Predicate.toInt_eq_toNat_of_lt (by omega)
  have e0 : (0#32 : BitVec 32).toInt = 0 := by decide
  have e1 : (208#32 : BitVec 32).toInt = 208 := by decide
  -- the larger of 0 and w is w
  have hmax : IntOp.maxsi 0#32 w = w := by
    unfold IntOp.maxsi
    split
    · rename_i hc
      simp only [BitVec.slt, hti, e0, decide_eq_true_eq] at hc
      omega
    · rfl
  rw [hmax]
  -- the smaller of 208 and w is w
  unfold IntOp.minsi
  split
  · rename_i hc
    simp only [BitVec.slt, hti, e1, decide_eq_true_eq] at hc
    omega
  · rfl

end Cert.PatchPre

end
-- ==== Proof.Spec.lean ====
/-
  What both programs compute, as one function of the argument arrays.

  The image batch x is [128, 3, 224, 224]; ys and xs give, for image b and patch n, the top-left pixel of a
  16 x 16 patch. Flat position k = c * 256 + p * 16 + q of a patch names channel c, row p and column q inside
  the patch; the patch element there is x[b, c, ys + p, xs + q]. A token is the patch's 768 elements times the
  [768, 384] weight matrix plus the bias. Rows and columns are reduced mod 224 so that the function is total; for
  offsets at most 208 the reduction does nothing.
-/
import Idealize.ShloMosaic.PureOps.Ideal
import Idealize.ShloMosaic.Lib.ValueIdx

noncomputable section

namespace Cert.PatchSpec

open Idealize.ShloMosaic Idealize.ShloMosaic.ValueIdx

/-- The channel of flat patch position k. -/
def kc (k : Fin 768) : Fin 3 := ⟨k.val / 256, by have := k.isLt; omega⟩
/-- The row inside the patch of flat patch position k. -/
def kp (k : Fin 768) : Fin 16 := ⟨k.val / 16 % 16, Nat.mod_lt _ (by decide)⟩
/-- The column inside the patch of flat patch position k. -/
def kq (k : Fin 768) : Fin 16 := ⟨k.val % 16, Nat.mod_lt _ (by decide)⟩

theorem k_eq (k : Fin 768) : k.val = (kc k).val * 256 + (kp k).val * 16 + (kq k).val := by
  simp only [kc, kp, kq]; omega

/-- The image row (or column) at offset p from the word v. -/
def pix (v : BitVec 32) (p : Fin 16) : Fin 224 := ⟨(v.toNat + p.val) % 224, Nat.mod_lt _ (by decide)⟩

theorem pix_val (v : BitVec 32) (p : Fin 16) (hv : v.toNat ≤ 208) : (pix v p).val = v.toNat + p.val := by
  simp only [pix]; exact Nat.mod_eq_of_lt (by have := p.isLt; omega)

/-- One of three values by channel. -/
def chan {α : Type} (a0 a1 a2 : α) (c : Fin 3) : α := if c.val = 0 then a0 else if c.val = 1 then a1 else a2

/-- Element k of patch n of image b. -/
def patch (x : (⟨4, ![128, 3, 224, 224]⟩ : Shape).Idx → EReal) (ys xs : (⟨2, ![128, 196]⟩ : Shape).Idx → BitVec 32)
    (b : Fin 128) (n : Fin 196) (k : Fin 768) : EReal :=
  x (ix4 b (kc k) (pix (ys (ix2 b n)) (kp k)) (pix (xs (ix2 b n)) (kq k)))

/-- Token (b, n) at feature d. -/
def tokenAt (x : (⟨4, ![128, 3, 224, 224]⟩ : Shape).Idx → EReal) (ys xs : (⟨2, ![128, 196]⟩ : Shape).Idx → BitVec 32)
    (W : (⟨2, ![768, 384]⟩ : Shape).Idx → EReal) (bias : (⟨1, ![384]⟩ : Shape).Idx → EReal)
    (b : Fin 128) (n : Fin 196) (d : Fin 384) : EReal :=
  (∑ k : Fin 768, patch x ys xs b n k * W (ix2 k d)) + bias (ix1 d)

/-- The token array. -/
def tokens (x : (⟨4, ![128, 3, 224, 224]⟩ : Shape).Idx → EReal) (ys xs : (⟨2, ![128, 196]⟩ : Shape).Idx → BitVec 32)
    (W : (⟨2, ![768, 384]⟩ : Shape).Idx → EReal) (bias : (⟨1, ![384]⟩ : Shape).Idx → EReal) :
    (⟨3, ![128, 196, 384]⟩ : Shape).Idx → EReal :=
  fun i => tokenAt x ys xs W bias (i 0) (i 1) (i 2)

end Cert.PatchSpec

end
-- ==== Proof.LibBatchTake.lean ====
/-
  `stablehlo.gather` as a batched take lowers it, read at an entry.

  For a matrix `x : [N, C]` and, for each row `b`, an `[R, K]` array of column indices, `idx : [N, R, K, 1]`, the
  gather has offset_dims `[]`, collapsed_slice_dims `[1]`, operand_batching_dims `[0]`,
  start_indices_batching_dims `[0]`, start_index_map `[1]`, index_vector_dim 3 and slice_sizes `[1, 1]`; the result
  is `[N, R, K]`.  Axis 0 of the operand is a batching axis: result entry `(b, n, k)` reads row `b` of the operand,
  the row of its own start index.  Axis 1 is the one the start index names: the column is the start index
  `idx[b, n, k, 0]`, read as a signed integer and clamped into `[0, C - 1]`, as StableHLO clamps every start index so
  that the slice (here one element) fits.  Both slice sizes are 1, so no offset is added on either axis.

  `batchTakeDims N C R K wf` is that record of dimension numbers for any extents; `gather_batchTake_apply` reads
  `Host.gather` of it at a result index, and `gather_batchTake_ix3` is the same at an index given by coordinates.
-/
import Idealize.ShloMosaic.Lib.ValueIdx

noncomputable section

namespace Cert.Proof.LibBatchTake

open Idealize.ShloMosaic Idealize.ShloMosaic.ValueIdx

variable {α : Type}

/-- The dimension numbers of the batched take for an operand `[N, C]`, start indices `[N, R, K, 1]` and result
    `[N, R, K]`. The well-formedness conditions are taken as a hypothesis `wf`, so the record exists for every choice
    of extents for which they hold. -/
abbrev batchTakeDims (N C R K : Nat)
    (wf : GatherDims.WF ⟨2, ![N, C]⟩ ⟨4, ![N, R, K, 1]⟩ ⟨3, ![N, R, K]⟩ [] [1] [0] [1] [0] 3 ![1, 1]) :
    GatherDims ⟨2, ![N, C]⟩ ⟨4, ![N, R, K, 1]⟩ ⟨3, ![N, R, K]⟩ where
  offsetDims := []
  collapsedSliceDims := [1]
  operandBatchingDims := [0]
  startIndicesBatchingDims := [0]
  startIndexMap := [1]
  indexVectorDim := 3
  sliceSizes := ![1, 1]
  wf := wf

/-- The start-indices index `[b, n, k, 0]` at which result index `(b, n, k)` reads its column. -/
abbrev batchTakeIdx {N R K : Nat} (y : (⟨3, ![N, R, K]⟩ : Shape).Idx) : (⟨4, ![N, R, K, 1]⟩ : Shape).Idx :=
  fun a => match a with
    | ⟨0, _⟩ => ⟨(y 0).val, (y 0).isLt⟩
    | ⟨1, _⟩ => ⟨(y 1).val, (y 1).isLt⟩
    | ⟨2, _⟩ => ⟨(y 2).val, (y 2).isLt⟩
    | ⟨3, _⟩ => ⟨0, Nat.one_pos⟩

/-- On the batching axis the operand coordinate is the result's first coordinate. -/
theorem batchTake_coord0 {N C R K w : Nat}
    (wf : GatherDims.WF ⟨2, ![N, C]⟩ ⟨4, ![N, R, K, 1]⟩ ⟨3, ![N, R, K]⟩ [] [1] [0] [1] [0] 3 ![1, 1])
    (idx : IVec ⟨4, ![N, R, K, 1]⟩ w) (y : (⟨3, ![N, R, K]⟩ : Shape).Idx) :
    (batchTakeDims N C R K wf).start y idx 0 + (batchTakeDims N C R K wf).batchCoord y 0
      + (batchTakeDims N C R K wf).offCoord y 0 = (y 0).val := by
  rw [GatherDims.start_batching _ _ _ _ (List.mem_singleton.mpr rfl),
    GatherDims.offCoord_eq_zero _ _ _ (fun h => ((GatherDims.mem_sKept _ _).mp h).2 (List.mem_singleton.mpr rfl))]
  simp only [Nat.zero_add, Nat.add_zero]
  unfold GatherDims.batchCoord
  rw [dif_pos (show (0 : Fin 2) ∈ (batchTakeDims N C R K wf).operandBatchingDims from List.mem_singleton.mpr rfl)]
  rfl

/-- On the indexed axis the operand coordinate is the clamped start index. -/
theorem batchTake_coord1 {N C R K w : Nat}
    (wf : GatherDims.WF ⟨2, ![N, C]⟩ ⟨4, ![N, R, K, 1]⟩ ⟨3, ![N, R, K]⟩ [] [1] [0] [1] [0] 3 ![1, 1])
    (idx : IVec ⟨4, ![N, R, K, 1]⟩ w) (y : (⟨3, ![N, R, K]⟩ : Shape).Idx) :
    (batchTakeDims N C R K wf).start y idx 1 + (batchTakeDims N C R K wf).batchCoord y 1
      + (batchTakeDims N C R K wf).offCoord y 1 = min (idx (batchTakeIdx y)).toInt.toNat (C - 1) := by
  rw [GatherDims.batchCoord_eq_zero _ _ _ (show (1 : Fin 2) ∉ ([0] : List (Fin 2)) by decide),
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (batchTakeDims N C R K wf).startIndexMap from List.mem_singleton.mpr rfl)]
  have hsi : (batchTakeDims N C R K wf).siIdx y ⟨List.idxOf (1 : Fin 2) (batchTakeDims N C R K wf).startIndexMap,
      List.idxOf_lt_length_iff.2 (List.mem_singleton.mpr rfl)⟩ = batchTakeIdx y := by
    funext b; refine Fin.ext ?_
    match b with
    | ⟨0, _⟩ => rfl
    | ⟨1, _⟩ => rfl
    | ⟨2, _⟩ => rfl
    | ⟨3, _⟩ => rfl
  rw [hsi]
  rfl

/-- The batched take at result index `y` is the operand at row `y 0` and at the column given by the start index
    `idx[y 0, y 1, y 2, 0]`, taken as a signed integer and clamped into `[0, C − 1]`. -/
theorem gather_batchTake_apply {N C R K w : Nat} (hC : 0 < C)
    (wf : GatherDims.WF ⟨2, ![N, C]⟩ ⟨4, ![N, R, K, 1]⟩ ⟨3, ![N, R, K]⟩ [] [1] [0] [1] [0] 3 ![1, 1])
    (x : (⟨2, ![N, C]⟩ : Shape).Idx → α) (idx : IVec ⟨4, ![N, R, K, 1]⟩ w) (y : (⟨3, ![N, R, K]⟩ : Shape).Idx) :
    Host.gather (batchTakeDims N C R K wf) x idx y
      = x (ix2 (⟨(y 0).val, (y 0).isLt⟩ : Fin N)
            (⟨min (idx (batchTakeIdx y)).toInt.toNat (C - 1), by omega⟩ : Fin C)) := by
  unfold Host.gather
  congr 1
  funext a
  refine Fin.ext ?_
  match a with
  | ⟨0, _⟩ => exact batchTake_coord0 wf idx y
  | ⟨1, _⟩ => exact batchTake_coord1 wf idx y

/-- The same at a result index given by its coordinates: row `b` of the operand, at the column
    `idx[b, n, k, 0]` read signed and clamped into `[0, C − 1]`. -/
theorem gather_batchTake_ix3 {N C R K w : Nat} (hC : 0 < C)
    (wf : GatherDims.WF ⟨2, ![N, C]⟩ ⟨4, ![N, R, K, 1]⟩ ⟨3, ![N, R, K]⟩ [] [1] [0] [1] [0] 3 ![1, 1])
    (x : (⟨2, ![N, C]⟩ : Shape).Idx → α) (idx : IVec ⟨4, ![N, R, K, 1]⟩ w) (b : Fin N) (n : Fin R) (k : Fin K) :
    Host.gather (batchTakeDims N C R K wf) x idx (ix3 b n k)
      = x (ix2 b (⟨min (idx (ix4 b n k (0 : Fin 1))).toInt.toNat (C - 1), by omega⟩ : Fin C)) := by
  rw [gather_batchTake_apply hC wf x idx (ix3 b n k)]
  have h : batchTakeIdx (ix3 b n k) = ix4 b n k (0 : Fin 1) := by
    funext a; match a with | ⟨0, _⟩ => rfl | ⟨1, _⟩ => rfl | ⟨2, _⟩ => rfl | ⟨3, _⟩ => rfl
  refine congrArg x (funext fun a => Fin.ext ?_)
  match a with
  | ⟨0, _⟩ => rfl
  | ⟨1, _⟩ =>
    show min (idx (batchTakeIdx (ix3 b n k))).toInt.toNat (C - 1) = min (idx (ix4 b n k (0 : Fin 1))).toInt.toNat (C - 1)
    rw [h]

end Cert.Proof.LibBatchTake

end
-- ==== Proof.RefValue.lean ====
/-
  The reference's token array is the specification's.

  The reference computes, for image b, patch n and flat patch position k = c * 256 + p * 16 + q, the flat position
  ys * 224 + xs + (p * 224 + q) + c * 50176 inside image b as a 32-bit word, adds 150528 to it when it is negative,
  and gathers that column of the image batch reshaped to [128, 150528]; the gather reads the word signed and clamps it
  into [0, 150527]. The tokens are the gathered patches times the weights plus the bias. With both offsets at most 208
  the flat position is below 150528, so the word arithmetic is the natural numbers', the word is not negative and is
  not clamped, and the column is pixel (c, ys + p, xs + q) of the image.
-/
import proofs.«402038_j1297080123683_2_alg».proof.Proof.Gen.ReferenceIdeal.Read
import proofs.«402038_j1297080123683_2_alg».proof.Proof.Spec
import proofs.«402038_j1297080123683_2_alg».proof.Proof.LibBatchTake
import Idealize.ShloMosaic.PureOps.Ideal.Laws
import Idealize.ShloMosaic.Lib.ValueIdx
import Idealize.ShloMosaic.Lib.Pipeline.Value
import Idealize.ShloMosaic.Lib.StableHlo.Predicate

noncomputable section

namespace Cert.ReferenceIdeal.PatchRef

open Idealize.ShloMosaic Idealize.ShloMosaic.ValueIdx Cert.ReferenceIdeal Cert.ReferenceIdeal.Gen Cert.PatchSpec
open Cert.ReferenceIdeal.Read

/-- The in-patch offset word at flat in-patch position j: row j / 16 times the image width plus column j % 16. -/
private theorem v9_val (j : Fin 256) :
    val_main_v9 (F := Ideal) (ix1 j) = BitVec.ofNat 32 (j.val / 16) * 224#32 + BitVec.ofNat 32 (j.val % 16) := by
  simp only [val_main_v9_apply, val_main_v8_apply, val_main_v6_apply, val_main_v7_apply, val_main_v5_apply,
    val_main_v1_apply, val_main_v4_apply, val_main_v3_apply, val_main_v0_apply, val_main_v2_apply, val_main_c_apply]
  rfl

/-- The flat-position word before the reshape, at (b, n, c, j): the patch corner's position, plus the in-patch offset,
    plus the channel's plane. -/
private theorem v25_val (x1 x2 : IVec S128x196 32) (b : Fin 128) (n : Fin 196) (c : Fin 3) (j : Fin 256) :
    val_main_v25 (F := Ideal) x1 x2 (ix4 b n c j)
      = (x1 (ix2 b n) * 224#32 + x2 (ix2 b n) + (BitVec.ofNat 32 (j.val / 16) * 224#32 + BitVec.ofNat 32 (j.val % 16)))
        + BitVec.ofNat 32 c.val * 50176#32 := by
  simp only [val_main_v25_apply, val_main_v23_apply, val_main_v24_apply, val_main_v21_apply, val_main_v22_apply,
    val_main_v20_apply, val_main_v18_apply, val_main_v19_apply, val_main_c_1_apply, val_main_v17_apply,
    val_main_v15_apply, val_main_v16_apply, val_main_v13_apply, val_main_v14_apply, val_main_v12_apply,
    val_main_v11_apply, val_main_v10_apply, val_main_c_0_apply]
  have e1 : idx_main_v13 (idx_main_v15 (idx_main_v21 (idx_main_v23 (ix4 b n c j)))) = ix2 b n :=
    funext fun a => match a with | ⟨0, _⟩ => rfl | ⟨1, _⟩ => rfl
  have e2 : idx_main_v14 (idx_main_v16 (idx_main_v21 (idx_main_v23 (ix4 b n c j)))) = ix1 j :=
    funext fun a => match a with | ⟨0, _⟩ => rfl
  rw [e1, e2, v9_val]
  rfl

/-- The reshape to [128, 196, 768] reads flat patch position k at channel k / 256 and in-patch position k % 256,
    whose row is k / 16 % 16 and whose column is k % 16. -/
private theorem v26_val (x1 x2 : IVec S128x196 32) (b : Fin 128) (n : Fin 196) (k : Fin 768) :
    val_main_v26 (F := Ideal) x1 x2 (ix3 b n k)
      = (x1 (ix2 b n) * 224#32 + x2 (ix2 b n)
          + (BitVec.ofNat 32 (kp k).val * 224#32 + BitVec.ofNat 32 (kq k).val))
        + BitVec.ofNat 32 (kc k).val * 50176#32 := by
  have hb := b.isLt; have hn := n.isLt; have hk := k.isLt
  have e : idx_main_v26 (ix3 b n k) = ix4 b n (kc k) (⟨k.val % 256, Nat.mod_lt _ (by decide)⟩ : Fin 256) := by
    funext a
    match a with
    | ⟨0, _⟩ => exact Fin.ext (by show ((b.val * 196 + n.val) * 768 + k.val) / 150528 = b.val; omega)
    | ⟨1, _⟩ => exact Fin.ext (by show ((b.val * 196 + n.val) * 768 + k.val) / 768 % 196 = n.val; omega)
    | ⟨2, _⟩ => exact Fin.ext (by show ((b.val * 196 + n.val) * 768 + k.val) / 256 % 3 = k.val / 256; omega)
    | ⟨3, _⟩ => exact Fin.ext (by show ((b.val * 196 + n.val) * 768 + k.val) % 256 = k.val % 256; omega)
  rw [val_main_v26_apply, e, v25_val]
  have h1 : k.val % 256 / 16 = (kp k).val := by simp only [kp]; omega
  have h2 : k.val % 256 % 16 = (kq k).val := by simp only [kq]; omega
  show (x1 (ix2 b n) * 224#32 + x2 (ix2 b n)
          + (BitVec.ofNat 32 (k.val % 256 / 16) * 224#32 + BitVec.ofNat 32 (k.val % 256 % 16)))
        + BitVec.ofNat 32 (kc k).val * 50176#32 = _
  rw [h1, h2]

/-- With offsets at most 208 the word arithmetic does not wrap: the sum is the word of the natural flat position. -/
private theorem flat_word (ys xs : BitVec 32) (hy : ys.toNat ≤ 208) (hx : xs.toNat ≤ 208) (c p q : Nat)
    (hc : c < 3) (hp : p < 16) (hq : q < 16) :
    (ys * 224#32 + xs + (BitVec.ofNat 32 p * 224#32 + BitVec.ofNat 32 q)) + BitVec.ofNat 32 c * 50176#32
      = BitVec.ofNat 32 (c * 50176 + (ys.toNat + p) * 224 + (xs.toNat + q)) := by
  apply BitVec.eq_of_toNat_eq
  simp only [BitVec.toNat_add, BitVec.toNat_mul, BitVec.toNat_ofNat]
  omega

/-- The natural flat position, inside one image, of pixel (c, ys + p, xs + q) for flat patch position k. -/
private def flatPos (ys xs : BitVec 32) (k : Fin 768) : Nat :=
  (kc k).val * 50176 + (ys.toNat + (kp k).val) * 224 + (xs.toNat + (kq k).val)

/-- With offsets at most 208 it is inside the image. -/
private theorem flatPos_lt (ys xs : BitVec 32) (hy : ys.toNat ≤ 208) (hx : xs.toNat ≤ 208) (k : Fin 768) :
    flatPos ys xs k < 150528 := by
  have h1 := (kc k).isLt; have h2 := (kp k).isLt; have h3 := (kq k).isLt
  unfold flatPos; omega

/-- The start index the gather reads at (b, n, k, 0): the word of the flat position. It is not negative, so the
    select keeps it. -/
private theorem start_val (x1 x2 : IVec S128x196 32) (hy : ∀ i, (x1 i).toNat ≤ 208) (hx : ∀ i, (x2 i).toNat ≤ 208)
    (b : Fin 128) (n : Fin 196) (k : Fin 768) :
    val_main_v33 (F := Ideal) x1 x2 (ix4 b n k (0 : Fin 1))
      = BitVec.ofNat 32 (flatPos (x1 (ix2 b n)) (x2 (ix2 b n)) k) := by
  have e : idx_main_v33 (ix4 b n k (0 : Fin 1)) = ix3 b n k :=
    funext fun a => match a with | ⟨0, _⟩ => rfl | ⟨1, _⟩ => rfl | ⟨2, _⟩ => rfl
  have ht : val_main_v26 (F := Ideal) x1 x2 (ix3 b n k) = BitVec.ofNat 32 (flatPos (x1 (ix2 b n)) (x2 (ix2 b n)) k) := by
    rw [v26_val, flat_word _ _ (hy _) (hx _) _ _ _ (kc k).isLt (kp k).isLt (kq k).isLt]; rfl
  have hlt := flatPos_lt (x1 (ix2 b n)) (x2 (ix2 b n)) (hy _) (hx _) k
  rw [val_main_v33_apply, e, val_main_v32_apply, val_main_v29_apply, val_main_v28_apply, val_main_c_2_apply, ht]
  have hneg : ¬ IntOp.cmpi .slt (BitVec.ofNat 32 (flatPos (x1 (ix2 b n)) (x2 (ix2 b n)) k)) 0#32 = 1#1 := by
    rw [StableHlo.Predicate.slt_iff_toNat (by rw [BitVec.toNat_ofNat]; omega) (by decide)]
    simp
  exact if_neg hneg

/-- The flattened image batch at row b and at a column that is the flat position of pixel (c, r, w) is the image
    batch at (b, c, r, w). -/
private theorem v27_val (x0 : FVec Ideal S128x3x224x224 .f32) (b : Fin 128) (col : Fin 150528) (c : Fin 3)
    (r w : Fin 224) (h : col.val = c.val * 50176 + r.val * 224 + w.val) :
    val_main_v27 (F := Ideal) x0 (ix2 b col) = x0 (ix4 b c r w) := by
  rw [val_main_v27_apply]
  refine congrArg x0 (funext fun a => Fin.ext ?_)
  have hb := b.isLt; have hc := c.isLt; have hr := r.isLt; have hw := w.isLt
  match a with
  | ⟨0, _⟩ => show (b.val * 150528 + col.val) / 150528 = b.val; omega
  | ⟨1, _⟩ => show (b.val * 150528 + col.val) / 50176 % 3 = c.val; omega
  | ⟨2, _⟩ => show (b.val * 150528 + col.val) / 224 % 224 = r.val; omega
  | ⟨3, _⟩ => show (b.val * 150528 + col.val) % 224 = w.val; omega

/-- The gathered array at (b, n, k) is element k of patch n of image b. -/
private theorem v34_val (x0 : FVec Ideal S128x3x224x224 .f32) (x1 x2 : IVec S128x196 32)
    (hy : ∀ i, (x1 i).toNat ≤ 208) (hx : ∀ i, (x2 i).toNat ≤ 208) (b : Fin 128) (n : Fin 196) (k : Fin 768) :
    val_main_v34 (F := Ideal) x0 x1 x2 (ix3 b n k) = patch x0 x1 x2 b n k := by
  have hlt := flatPos_lt (x1 (ix2 b n)) (x2 (ix2 b n)) (hy _) (hx _) k
  have hm : min (val_main_v33 (F := Ideal) x1 x2 (ix4 b n k (0 : Fin 1))).toInt.toNat (150528 - 1)
      = (kc k).val * 50176 + (pix (x1 (ix2 b n)) (kp k)).val * 224 + (pix (x2 (ix2 b n)) (kq k)).val := by
    rw [start_val x1 x2 hy hx b n k, StableHlo.Predicate.toInt_ofNat_small _ (by omega), Int.toNat_natCast,
      Nat.min_eq_left (by omega), pix_val _ _ (hy _), pix_val _ _ (hx _)]
    rfl
  have hg := Cert.Proof.LibBatchTake.gather_batchTake_ix3 (N := 128) (C := 150528) (R := 196) (K := 768) (by decide)
    gather_S128x150528_S128x196x768x1_S128x196x768_n_1_0_0_1_3_11.wf (val_main_v27 (F := Ideal) x0)
    (val_main_v33 (F := Ideal) x1 x2) b n k
  unfold val_main_v34 patch
  exact hg.trans (v27_val x0 b _ (kc k) (pix (x1 (ix2 b n)) (kp k)) (pix (x2 (ix2 b n)) (kq k)) hm)

/-- With every offset in [0, 208] the flat index ys * 224 + xs + (p * 224 + q) + c * 50176 neither wraps, nor is
    negative, nor is clamped, and names pixel (c, ys + p, xs + q) of the flattened image: the reference's tokens are the
    specification's. -/
theorem ref_tokens (x : FVec Ideal S128x3x224x224 .f32) (ys xs : IVec S128x196 32) (W : FVec Ideal S768x384 .f32)
    (b : FVec Ideal S384 .f32) (hy : ∀ i, (ys i).toNat ≤ 208) (hx : ∀ i, (xs i).toNat ≤ 208) :
    Cert.ReferenceIdeal.Read.val_main_v38 (F := Ideal) x ys xs W b = tokens x ys xs W b := by
  funext i
  obtain ⟨bb, n, d, rfl⟩ : ∃ (bb : Fin 128) (n : Fin 196) (d : Fin 384), i = ix3 bb n d := ⟨i 0, i 1, i 2, eq_ix3 i⟩
  show val_main_v35 (F := Ideal) x ys xs W (ix3 bb n d) + val_main_v37 (F := Ideal) b (ix3 bb n d)
    = tokenAt x ys xs W b bb n d
  rw [val_main_v35_apply, val_main_v37_apply, val_main_v36_apply]
  unfold tokenAt
  congr 1
  · refine Finset.sum_congr rfl fun k _ => ?_
    have el : lidx_main_v35 (ix3 bb n d) k = ix3 bb n k :=
      funext fun a => match a with | ⟨0, _⟩ => rfl | ⟨1, _⟩ => rfl | ⟨2, _⟩ => rfl
    have er : ridx_main_v35 (ix3 bb n d) k = ix2 k d :=
      funext fun a => match a with | ⟨0, _⟩ => rfl | ⟨1, _⟩ => rfl
    rw [el, er, v34_val x ys xs hy hx bb n k]
  · exact congrArg b (funext fun a => match a with | ⟨0, _⟩ => rfl)

end Cert.ReferenceIdeal.PatchRef

end
-- ==== Proof.LibPlainDot.lean ====
/-
  A plain matrix product read at an entry.
  The dimension numbers "contract the left operand's axis 1 with the right operand's axis 0, no batch axis" describe the
  product of an [M, K] matrix with a [K, N] matrix. At the ideal instance its entry (p, q) is the sum over k of
  l[p, k] * r[k, q], both for the vector unit's product into a zero accumulator and for the host's dot_general. The lemmas
  are stated for any extents M, K, N and any proof of the dimension numbers' well-formedness, so every record with
  these six axis lists is an instance.
-/
import Idealize.ShloMosaic.PureOps.Ideal.Laws
import Idealize.ShloMosaic.Lib.ValueIdx

noncomputable section

namespace Cert.LibPlainDot

open Idealize.ShloMosaic Idealize.ShloMosaic.ValueIdx

/-- The dimension numbers of the plain product [M, K] × [K, N] → [M, N], over any proof that they are well formed. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section
variable {M K N : Nat} (wf : DotDims.WF ⟨2, ![M, K]⟩ ⟨2, ![K, N]⟩ ⟨2, ![M, N]⟩ [1] [0] [0] [1] [] [])

/-- The left operand's row is the result's row: axis 0 of the left operand is its one free axis. -/
theorem lhs_row (j : (⟨2, ![M, N]⟩ : Shape).Idx) (k : (plainDims M K N wf).contr.Idx) :
    ((plainDims M K N wf).lhsIdx j k 0).val = (j 0).val := by
  unfold DotDims.lhsIdx
  rw [dif_neg (show ¬(0 : Fin (⟨2, ![M, K]⟩ : Shape).rank) ∈ (plainDims M K N wf).lhsBatch from List.not_mem_nil),
    dif_pos (show (0 : Fin (⟨2, ![M, K]⟩ : Shape).rank) ∈ (plainDims M K N wf).lhsNonContracting from List.mem_singleton.mpr rfl)]
  rfl

/-- The left operand's column is the contraction index. -/
theorem lhs_col (j : (⟨2, ![M, N]⟩ : Shape).Idx) (k : (plainDims M K N wf).contr.Idx) :
    ((plainDims M K N wf).lhsIdx j k 1).val = (k ⟨0, Nat.one_pos⟩).val :=
  (plainDims M K N wf).lhsIdx_val_of_single rfl j k

/-- The right operand's row is the contraction index. -/
theorem rhs_row (j : (⟨2, ![M, N]⟩ : Shape).Idx) (k : (plainDims M K N wf).contr.Idx) :
    ((plainDims M K N wf).rhsIdx j k 0).val = (k ⟨0, Nat.one_pos⟩).val :=
  (plainDims M K N wf).rhsIdx_val_of_single rfl j k

/-- The right operand's column is the result's column: axis 1 of the right operand is its one free axis. -/
theorem rhs_col (j : (⟨2, ![M, N]⟩ : Shape).Idx) (k : (plainDims M K N wf).contr.Idx) :
    ((plainDims M K N wf).rhsIdx j k 1).val = (j 1).val := by
  unfold DotDims.rhsIdx
  rw [dif_neg (show ¬(1 : Fin (⟨2, ![K, N]⟩ : Shape).rank) ∈ (plainDims M K N wf).rhsBatch from List.not_mem_nil),
    dif_pos (show (1 : Fin (⟨2, ![K, N]⟩ : Shape).rank) ∈ (plainDims M K N wf).rhsNonContracting from List.mem_singleton.mpr rfl)]
  rfl

/-- THE CONTRACTION'S SUM over the one contracted axis, re-indexed by its coordinate k : Fin K: the operands are read
    at (p, k) and (k, q). -/
theorem sum_contr {α : Type} [AddCommMonoid α] (f : (⟨2, ![M, K]⟩ : Shape).Idx → (⟨2, ![K, N]⟩ : Shape).Idx → α)
    (p : Fin M) (q : Fin N) :
    ∑ k : (plainDims M K N wf).contr.Idx, f ((plainDims M K N wf).lhsIdx (ix2 p q) k) ((plainDims M K N wf).rhsIdx (ix2 p q) k)
      = ∑ k : Fin K, f (ix2 p k) (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

/-- THE VECTOR UNIT'S PRODUCT INTO A ZERO ACCUMULATOR, at the ideal instance, read at (p, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply]
  exact sum_contr wf (fun a b => l a * r b) p q

/-- THE HOST'S dot_general, at the ideal instance, read at (p, q). -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (plainDims M K N wf) prec sched l r (ix2 p q)
      = ∑ k : Fin K, l (ix2 p k) * r (ix2 k q) := by
  rw [Ideal.dotGeneral_apply]
  exact sum_contr wf (fun a b => l a * r b) p q

end

end Cert.LibPlainDot

end
-- ==== Proof.KSel.lean ====
/-
  The two selector arrays of the kernel body and its first product, read at an index.
-/
import proofs.«402038_j1297080123683_2_alg».proof.Proof.Gen.KernelIdeal.Skeleton
import proofs.«402038_j1297080123683_2_alg».proof.Proof.Spec
import proofs.«402038_j1297080123683_2_alg».proof.Proof.LibPlainDot
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StableHlo.Predicate

noncomputable section

namespace Cert.KernelIdeal.PatchValue

open Idealize.ShloMosaic Idealize.ShloMosaic.ValueIdx Cert.KernelIdeal Cert.KernelIdeal.Gen Cert.PatchSpec
open Idealize.ShloMosaic.StableHlo.Predicate (cmpi_eq_iff)

/-! ## The one-hot selector -/

/-- The selector's chain of operations over a block v of offsets: the offsets spread along the patch axis plus the
    patch coordinate, compared for equality with the image coordinate, the bit made a float. -/
private def sel (v : IVec S1x196x1 32) : FVec Ideal S196x16x224 .bf16 :=
  truncf .bf16
    (sitofp .f32
      (extui 32
        (cmpi .eq
          (broadcastTo S196x16x224
            (shapeCast S196x16x1
              (addi (broadcastTo S196x16 (shapeCast S196x1 v shapeCasts_S1x196x1_S196x1) broadcasts_S196x1_S196x16)
                (broadcastTo S196x16 (iota .tc S1x16 32 [1] iota_S1x16_d1_w32) broadcasts_S1x16_S196x16))
              shapeCasts_S196x16_S196x16x1)
            broadcasts_S196x16x1_S196x16x224)
          (broadcastTo S196x16x224 (iota .tc S1x1x224 32 [2] iota_S1x1x224_d2_w32) broadcasts_S1x1x224_S196x16x224))
        natLt_1_32))
    bitsLt_bf16_f32

/-- The left word of the comparison at (n, q, w): the offset of patch n plus q. -/
private theorem sel_lhs (v : IVec S1x196x1 32) (n : Fin 196) (q : Fin 16) (w : Fin 224) :
    broadcastTo S196x16x224
        (shapeCast S196x16x1
          (addi (broadcastTo S196x16 (shapeCast S196x1 v shapeCasts_S1x196x1_S196x1) broadcasts_S196x1_S196x16)
            (broadcastTo S196x16 (iota .tc S1x16 32 [1] iota_S1x16_d1_w32) broadcasts_S1x16_S196x16))
          shapeCasts_S196x16_S196x16x1)
        broadcasts_S196x16x1_S196x16x224 (ix3 n q w)
      = v (ix3 (0 : Fin 1) n (0 : Fin 1)) + BitVec.ofNat 32 q.val := by
  refine (broadcastTo_apply _ _ (ix3 n q w) (ix3 n q (0 : Fin 1))
    (fun a => match a with | ⟨0, _⟩ => rfl | ⟨1, _⟩ => rfl | ⟨2, _⟩ => rfl)).trans ?_
  refine (shapeCast_apply _ _ (ix3 n q (0 : Fin 1)) (ix2 n q) (by
    rw [Shape.rowMajor_val_two, Shape.rowMajor_val_three]
    show n.val * 16 + q.val = (n.val * 16 + q.val) * 1 + 0
    omega)).trans ?_
  show broadcastTo S196x16 (shapeCast S196x1 v shapeCasts_S1x196x1_S196x1) broadcasts_S196x1_S196x16 (ix2 n q)
      + broadcastTo S196x16 (iota .tc S1x16 32 [1] iota_S1x16_d1_w32) broadcasts_S1x16_S196x16 (ix2 n q) = _
  have e1 : broadcastTo S196x16 (shapeCast S196x1 v shapeCasts_S1x196x1_S196x1) broadcasts_S196x1_S196x16 (ix2 n q)
      = v (ix3 (0 : Fin 1) n (0 : Fin 1)) := by
    refine (broadcastTo_apply _ _ (ix2 n q) (ix2 n (0 : Fin 1))
      (fun a => match a with | ⟨0, _⟩ => rfl | ⟨1, _⟩ => rfl)).trans ?_
    exact shapeCast_1ab_ab_apply v shapeCasts_S1x196x1_S196x1 n (0 : Fin 1)
  have e2 : broadcastTo S196x16 (iota .tc S1x16 32 [1] iota_S1x16_d1_w32) broadcasts_S1x16_S196x16 (ix2 n q)
      = BitVec.ofNat 32 q.val := by
    refine (broadcastTo_apply _ _ (ix2 n q) (ix2 (0 : Fin 1) q)
      (fun a => match a with | ⟨0, _⟩ => rfl | ⟨1, _⟩ => rfl)).trans ?_
    exact iota_single_apply .tc S1x16 32 1 iota_S1x16_d1_w32 (ix2 (0 : Fin 1) q)
  rw [e1, e2]

/-- The right word of the comparison at (n, q, w): the image coordinate w. -/
private theorem sel_rhs (n : Fin 196) (q : Fin 16) (w : Fin 224) :
    broadcastTo S196x16x224 (iota .tc S1x1x224 32 [2] iota_S1x1x224_d2_w32) broadcasts_S1x1x224_S196x16x224 (ix3 n q w)
      = BitVec.ofNat 32 w.val := by
  refine (broadcastTo_apply _ _ (ix3 n q w) (ix3 (0 : Fin 1) (0 : Fin 1) w)
    (fun a => match a with | ⟨0, _⟩ => rfl | ⟨1, _⟩ => rfl | ⟨2, _⟩ => rfl)).trans ?_
  exact iota_single_apply .tc S1x1x224 32 2 iota_S1x1x224_d2_w32 (ix3 (0 : Fin 1) (0 : Fin 1) w)

/-- For an offset at most 208 the word sum with q < 16 does not wrap: it is the word w < 224 exactly when the values
    add up. -/
private theorem word_eq_iff (v : BitVec 32) (q w : Nat) (hv : v.toNat ≤ 208) (hq : q < 16) (hw : w < 224) :
    v + BitVec.ofNat 32 q = BitVec.ofNat 32 w ↔ v.toNat + q = w := by
  constructor
  · intro h
    have h' := congrArg BitVec.toNat h
    rw [BitVec.toNat_add, BitVec.toNat_ofNat, BitVec.toNat_ofNat] at h'
    omega
  · intro h
    apply BitVec.eq_of_toNat_eq
    rw [BitVec.toNat_add, BitVec.toNat_ofNat, BitVec.toNat_ofNat]
    omega

/-- The selector read at (n, q, w). -/
private theorem sel_apply (v : IVec S1x196x1 32) (n : Fin 196) (q : Fin 16) (w : Fin 224)
    (hb : (v (ix3 (0 : Fin 1) n (0 : Fin 1))).toNat ≤ 208) :
    sel v (ix3 n q w) = if pix (v (ix3 (0 : Fin 1) n (0 : Fin 1))) q = w then (1 : EReal) else 0 := by
  have hq := q.isLt
  have hw := w.isLt
  have hpix : pix (v (ix3 (0 : Fin 1) n (0 : Fin 1))) q = w ↔ (v (ix3 (0 : Fin 1) n (0 : Fin 1))).toNat + q.val = w.val := by
    rw [Fin.ext_iff, pix_val _ _ hb]
  show (((((IntOp.cmpi .eq
      (broadcastTo S196x16x224
        (shapeCast S196x16x1
          (addi (broadcastTo S196x16 (shapeCast S196x1 v shapeCasts_S1x196x1_S196x1) broadcasts_S196x1_S196x16)
            (broadcastTo S196x16 (iota .tc S1x16 32 [1] iota_S1x16_d1_w32) broadcasts_S1x16_S196x16))
          shapeCasts_S196x16_S196x16x1)
        broadcasts_S196x16x1_S196x16x224 (ix3 n q w))
      (broadcastTo S196x16x224 (iota .tc S1x1x224 32 [2] iota_S1x1x224_d2_w32) broadcasts_S1x1x224_S196x16x224 (ix3 n q w))).setWidth 32).toInt : ℝ)) : EReal) = _
  rw [sel_lhs, sel_rhs]
  by_cases h : (v (ix3 (0 : Fin 1) n (0 : Fin 1))).toNat + q.val = w.val
  · rw [if_pos (hpix.mpr h), cmpi_eq_iff.mpr ((word_eq_iff _ _ _ hb hq hw).mpr h)]
    rw [show ((1#1 : BitVec 1).setWidth 32).toInt = 1 from by decide, Int.cast_one, EReal.coe_one]
  · rw [if_neg (fun e => h (hpix.mp e)),
      eq_zero_of_ne_one (fun e => h ((word_eq_iff _ _ _ hb hq hw).mp (cmpi_eq_iff.mp e)))]
    rw [show ((0#1 : BitVec 1).setWidth 32).toInt = 0 from by decide, Int.cast_zero, EReal.coe_zero]

/-- The column selector: entry (n, q, w) is 1 where w is column xs[n] + q of the image and 0 elsewhere. -/
theorem pay2_apply (v2 : IVec S1x196x1 32) (n : Fin 196) (q : Fin 16) (w : Fin 224)
    (hb : (v2 (ix3 (0 : Fin 1) n (0 : Fin 1))).toNat ≤ 208) :
    k0_pay2 (F := Ideal) v2 (ix3 n q w) = if pix (v2 (ix3 (0 : Fin 1) n (0 : Fin 1))) q = w then (1 : EReal) else 0 := by
  exact sel_apply v2 n q w hb

/-! ## The image, its three channels side by side -/

/-- The three channel blocks, each read as a [224, 224] matrix, laid side by side along the columns. -/
private def img (a0 a1 a2 : FVec Ideal S1x1x224x224 .f32) : FVec Ideal S224x672 .bf16 :=
  concatenate S224x672 1
    [⟨S224x224, truncf .bf16 (shapeCast S224x224 a0 shapeCasts_S1x1x224x224_S224x224) bitsLt_bf16_f32⟩,
     ⟨S224x224, truncf .bf16 (shapeCast S224x224 a1 shapeCasts_S1x1x224x224_S224x224) bitsLt_bf16_f32⟩,
     ⟨S224x224, truncf .bf16 (shapeCast S224x224 a2 shapeCasts_S1x1x224x224_S224x224) bitsLt_bf16_f32⟩]
    concatenates_S224x224_S224x224_S224x224_S224x672_d1

/-- One channel block read as a matrix at (h, w). -/
private theorem chan_mat_apply (a : FVec Ideal S1x1x224x224 .f32) (h w : Fin 224) :
    (truncf .bf16 (shapeCast S224x224 a shapeCasts_S1x1x224x224_S224x224) bitsLt_bf16_f32 : FVec Ideal S224x224 .bf16) (ix2 h w)
      = a (ix4 (0 : Fin 1) (0 : Fin 1) h w) := by
  rw [truncf_apply]
  exact shapeCast_apply a shapeCasts_S1x1x224x224_S224x224 (ix2 h w) (ix4 (0 : Fin 1) (0 : Fin 1) h w) (by
    rw [Shape.rowMajor_val_four, Shape.rowMajor_val_two]
    show ((0 * 1 + 0) * 224 + h.val) * 224 + w.val = h.val * 224 + w.val
    omega)

/-- The image at row h, column c * 224 + w: channel c at (h, w). -/
private theorem img_apply (a0 a1 a2 : FVec Ideal S1x1x224x224 .f32) (h : Fin 224) (c : Fin 3) (w : Fin 224) :
    img a0 a1 a2 (ix2 h (⟨c.val * 224 + w.val, by have := c.isLt; have := w.isLt; omega⟩ : Fin 672))
      = chan a0 a1 a2 c (ix4 (0 : Fin 1) (0 : Fin 1) h w) := by
  unfold img
  match c with
  | ⟨0, _⟩ =>
    refine (concatenate_apply_piece (1 : Fin S224x672.rank)
      [⟨S224x224, truncf .bf16 (shapeCast S224x224 a0 shapeCasts_S1x1x224x224_S224x224) bitsLt_bf16_f32⟩,
       ⟨S224x224, truncf .bf16 (shapeCast S224x224 a1 shapeCasts_S1x1x224x224_S224x224) bitsLt_bf16_f32⟩,
       ⟨S224x224, truncf .bf16 (shapeCast S224x224 a2 shapeCasts_S1x1x224x224_S224x224) bitsLt_bf16_f32⟩]
      concatenates_S224x224_S224x224_S224x224_S224x672_d1 _
      0 (by show 0 < 3; omega) S224x224 _ rfl rfl 0 rfl (ix2 h w)
      (fun b => match b with | ⟨0, _⟩ => fun _ => rfl | ⟨1, _⟩ => fun hb => absurd rfl hb)
      (by show 0 + w.val = 0 * 224 + w.val; omega)).trans ?_
    exact chan_mat_apply a0 h w
  | ⟨1, _⟩ =>
    refine (concatenate_apply_piece (1 : Fin S224x672.rank)
      [⟨S224x224, truncf .bf16 (shapeCast S224x224 a0 shapeCasts_S1x1x224x224_S224x224) bitsLt_bf16_f32⟩,
       ⟨S224x224, truncf .bf16 (shapeCast S224x224 a1 shapeCasts_S1x1x224x224_S224x224) bitsLt_bf16_f32⟩,
       ⟨S224x224, truncf .bf16 (shapeCast S224x224 a2 shapeCasts_S1x1x224x224_S224x224) bitsLt_bf16_f32⟩]
      concatenates_S224x224_S224x224_S224x224_S224x672_d1 _
      1 (by show 1 < 3; omega) S224x224 _ rfl rfl 224 rfl (ix2 h w)
      (fun b => match b with | ⟨0, _⟩ => fun _ => rfl | ⟨1, _⟩ => fun hb => absurd rfl hb)
      (by show 224 + w.val = 1 * 224 + w.val; omega)).trans ?_
    exact chan_mat_apply a1 h w
  | ⟨2, _⟩ =>
    refine (concatenate_apply_piece (1 : Fin S224x672.rank)
      [⟨S224x224, truncf .bf16 (shapeCast S224x224 a0 shapeCasts_S1x1x224x224_S224x224) bitsLt_bf16_f32⟩,
       ⟨S224x224, truncf .bf16 (shapeCast S224x224 a1 shapeCasts_S1x1x224x224_S224x224) bitsLt_bf16_f32⟩,
       ⟨S224x224, truncf .bf16 (shapeCast S224x224 a2 shapeCasts_S1x1x224x224_S224x224) bitsLt_bf16_f32⟩]
      concatenates_S224x224_S224x224_S224x224_S224x672_d1 _
      2 (by show 2 < 3; omega) S224x224 _ rfl rfl 448 rfl (ix2 h w)
      (fun b => match b with | ⟨0, _⟩ => fun _ => rfl | ⟨1, _⟩ => fun hb => absurd rfl hb)
      (by show 448 + w.val = 2 * 224 + w.val; omega)).trans ?_
    exact chan_mat_apply a2 h w

/-! ## The first product -/

/-- The row selector as a [3136, 224] matrix: row n * 16 + p is the selector's row (n, p). -/
private theorem sel_mat_apply (v : IVec S1x196x1 32) (n : Fin 196) (p : Fin 16) (h : Fin 224) :
    shapeCast S3136x224 (sel v) shapeCasts_S196x16x224_S3136x224
        (ix2 (⟨n.val * 16 + p.val, by have := n.isLt; have := p.isLt; omega⟩ : Fin 3136) h)
      = sel v (ix3 n p h) :=
  shapeCast_apply (sel v) shapeCasts_S196x16x224_S3136x224 _ (ix3 n p h) (by
    rw [Shape.rowMajor_val_three, Shape.rowMajor_val_two]
    show (n.val * 16 + p.val) * 224 + h.val = (n.val * 16 + p.val) * 224 + h.val
    rfl)

/-- The first product: row n * 16 + p, column c * 224 + w holds channel c of the image at row ys[n] + p, column w. -/
theorem pay3_apply (v0 : IVec S1x196x1 32) (a0 a1 a2 : FVec Ideal S1x1x224x224 .f32)
    (n : Fin 196) (p : Fin 16) (c : Fin 3) (w : Fin 224)
    (hb : (v0 (ix3 (0 : Fin 1) n (0 : Fin 1))).toNat ≤ 208) :
    k0_pay3 (F := Ideal) v0 a0 a1 a2
        (ix2 (⟨n.val * 16 + p.val, by have := n.isLt; have := p.isLt; omega⟩ : Fin 3136)
             (⟨c.val * 224 + w.val, by have := c.isLt; have := w.isLt; omega⟩ : Fin 672))
      = chan a0 a1 a2 c (ix4 (0 : Fin 1) (0 : Fin 1) (pix (v0 (ix3 (0 : Fin 1) n (0 : Fin 1))) p) w) := by
  show FloatOps.matmul (Cert.LibPlainDot.plainDims 3136 224 672 dot_S3136x224_S224x672_S3136x672_1_0_0_1_n_n_wf) none
      (shapeCast S3136x224 (sel v0) shapeCasts_S196x16x224_S3136x224) (img a0 a1 a2)
      (constant ⟨2, ![3136, 672]⟩ .f32 0x00000000#32)
      (ix2 (⟨n.val * 16 + p.val, by have := n.isLt; have := p.isLt; omega⟩ : Fin 3136)
           (⟨c.val * 224 + w.val, by have := c.isLt; have := w.isLt; omega⟩ : Fin 672)) = _
  rw [Cert.LibPlainDot.matmul_zero_apply]
  rw [Finset.sum_eq_single (pix (v0 (ix3 (0 : Fin 1) n (0 : Fin 1))) p)]
  · rw [sel_mat_apply, sel_apply v0 n p _ hb, if_pos rfl, one_mul, img_apply]
  · intro h _ hne
    rw [sel_mat_apply, sel_apply v0 n p h hb, if_neg (fun e => hne e.symm), zero_mul]
  · intro hnm
    exact absurd (Finset.mem_univ _) hnm

end Cert.KernelIdeal.PatchValue

end
-- ==== Proof.LibBatchTransDot.lean ====
/-
  A batched matrix product whose right operand is contracted on its last axis, read at an entry.
  The dimension numbers "batch axis 0 of both operands, contract axis 2 of the left operand with axis 2 of the right
  operand, free axes 1 and 1" describe, for every batch index b, the product of an [M, K] matrix with the transpose of an
  [N, K] matrix: [B, M, K] × [B, N, K] → [B, M, N]. At the ideal instance its entry (b, p, q) is the sum over k of
  l[b, p, k] * r[b, q, k], both for the vector unit's product into a zero accumulator and for the host's dot_general.
  The lemmas are stated for any extents B, M, K, N and any proof of the dimension numbers' well-formedness, so every
  record with these six axis lists is an instance.
-/
import Idealize.ShloMosaic.PureOps.Ideal.Laws
import Idealize.ShloMosaic.Lib.ValueIdx

noncomputable section

namespace Cert.LibBatchTransDot

open Idealize.ShloMosaic Idealize.ShloMosaic.ValueIdx

/-- The dimension numbers of the batched product [B, M, K] × [B, N, K] → [B, M, N], over any proof that they are well
    formed. -/
abbrev batchTransDims (B M K N : Nat)
    (wf : DotDims.WF ⟨3, ![B, M, K]⟩ ⟨3, ![B, N, K]⟩ ⟨3, ![B, M, N]⟩ [2] [2] [1] [1] [0] [0]) :
    DotDims ⟨3, ![B, M, K]⟩ ⟨3, ![B, N, K]⟩ ⟨3, ![B, M, N]⟩ where
  lhsContracting := [2]
  rhsContracting := [2]
  lhsNonContracting := [1]
  rhsNonContracting := [1]
  lhsBatch := [0]
  rhsBatch := [0]
  wf := wf

section
variable {B M K N : Nat}
  (wf : DotDims.WF ⟨3, ![B, M, K]⟩ ⟨3, ![B, N, K]⟩ ⟨3, ![B, M, N]⟩ [2] [2] [1] [1] [0] [0])

/-- The left operand's batch coordinate is the result's: axis 0 of the left operand is its batch axis. -/
theorem lhs_batch (j : (⟨3, ![B, M, N]⟩ : Shape).Idx) (k : (batchTransDims B M K N wf).contr.Idx) :
    ((batchTransDims B M K N wf).lhsIdx j k 0).val = (j 0).val := by
  unfold DotDims.lhsIdx
  rw [dif_pos (show (0 : Fin (⟨3, ![B, M, K]⟩ : Shape).rank) ∈ (batchTransDims B M K N wf).lhsBatch from
    List.mem_singleton.mpr rfl)]
  rfl

/-- The left operand's row is the result's row: axis 1 of the left operand is its one free axis. -/
theorem lhs_row (j : (⟨3, ![B, M, N]⟩ : Shape).Idx) (k : (batchTransDims B M K N wf).contr.Idx) :
    ((batchTransDims B M K N wf).lhsIdx j k 1).val = (j 1).val := by
  unfold DotDims.lhsIdx
  rw [dif_neg (show ¬(1 : Fin (⟨3, ![B, M, K]⟩ : Shape).rank) ∈ (batchTransDims B M K N wf).lhsBatch from
      fun h => absurd (congrArg Fin.val (List.mem_singleton.mp h)) Nat.one_ne_zero),
    dif_pos (show (1 : Fin (⟨3, ![B, M, K]⟩ : Shape).rank) ∈ (batchTransDims B M K N wf).lhsNonContracting from
      List.mem_singleton.mpr rfl)]
  rfl

/-- The left operand's last coordinate is the contraction index. -/
theorem lhs_col (j : (⟨3, ![B, M, N]⟩ : Shape).Idx) (k : (batchTransDims B M K N wf).contr.Idx) :
    ((batchTransDims B M K N wf).lhsIdx j k 2).val = (k ⟨0, Nat.one_pos⟩).val :=
  (batchTransDims B M K N wf).lhsIdx_val_of_single rfl j k

/-- The right operand's batch coordinate is the result's: axis 0 of the right operand is its batch axis. -/
theorem rhs_batch (j : (⟨3, ![B, M, N]⟩ : Shape).Idx) (k : (batchTransDims B M K N wf).contr.Idx) :
    ((batchTransDims B M K N wf).rhsIdx j k 0).val = (j 0).val := by
  unfold DotDims.rhsIdx
  rw [dif_pos (show (0 : Fin (⟨3, ![B, N, K]⟩ : Shape).rank) ∈ (batchTransDims B M K N wf).rhsBatch from
    List.mem_singleton.mpr rfl)]
  rfl

/-- The right operand's row is the result's column: axis 1 of the right operand is its one free axis. -/
theorem rhs_row (j : (⟨3, ![B, M, N]⟩ : Shape).Idx) (k : (batchTransDims B M K N wf).contr.Idx) :
    ((batchTransDims B M K N wf).rhsIdx j k 1).val = (j 2).val := by
  unfold DotDims.rhsIdx
  rw [dif_neg (show ¬(1 : Fin (⟨3, ![B, N, K]⟩ : Shape).rank) ∈ (batchTransDims B M K N wf).rhsBatch from
      fun h => absurd (congrArg Fin.val (List.mem_singleton.mp h)) Nat.one_ne_zero),
    dif_pos (show (1 : Fin (⟨3, ![B, N, K]⟩ : Shape).rank) ∈ (batchTransDims B M K N wf).rhsNonContracting from
      List.mem_singleton.mpr rfl)]
  rfl

/-- The right operand's last coordinate is the contraction index. -/
theorem rhs_col (j : (⟨3, ![B, M, N]⟩ : Shape).Idx) (k : (batchTransDims B M K N wf).contr.Idx) :
    ((batchTransDims B M K N wf).rhsIdx j k 2).val = (k ⟨0, Nat.one_pos⟩).val :=
  (batchTransDims B M K N wf).rhsIdx_val_of_single rfl j k

/-- THE CONTRACTION'S SUM over the one contracted axis, re-indexed by its coordinate k : Fin K: the operands are read
    at (b, p, k) and (b, q, k). -/
theorem sum_contr {α : Type} [AddCommMonoid α]
    (f : (⟨3, ![B, M, K]⟩ : Shape).Idx → (⟨3, ![B, N, K]⟩ : Shape).Idx → α) (b : Fin B) (p : Fin M) (q : Fin N) :
    ∑ k : (batchTransDims B M K N wf).contr.Idx,
        f ((batchTransDims B M K N wf).lhsIdx (ix3 b p q) k) ((batchTransDims B M K N wf).rhsIdx (ix3 b p q) k)
      = ∑ k : Fin K, f (ix3 b p k) (ix3 b q k) := by
  rw [← Equiv.sum_comp (contrEquiv1 (batchTransDims B M K N wf) K rfl rfl).symm]
  refine Finset.sum_congr rfl fun k _ => ?_
  have hk := contrEquiv1_symm_val (batchTransDims B M K N wf) K rfl rfl k
  have el : (batchTransDims B M K N wf).lhsIdx (ix3 b p q)
      ((contrEquiv1 (batchTransDims B M K N wf) K rfl rfl).symm k) = ix3 b p k :=
    funext fun a => Fin.ext (by
      match a with
      | ⟨0, _⟩ => exact lhs_batch wf _ _
      | ⟨1, _⟩ => exact lhs_row wf _ _
      | ⟨2, _⟩ => exact (lhs_col wf _ _).trans hk)
  have er : (batchTransDims B M K N wf).rhsIdx (ix3 b p q)
      ((contrEquiv1 (batchTransDims B M K N wf) K rfl rfl).symm k) = ix3 b q k :=
    funext fun a => Fin.ext (by
      match a with
      | ⟨0, _⟩ => exact rhs_batch wf _ _
      | ⟨1, _⟩ => exact rhs_row wf _ _
      | ⟨2, _⟩ => exact (rhs_col wf _ _).trans hk)
  rw [el, er]

/-- THE VECTOR UNIT'S PRODUCT INTO A ZERO ACCUMULATOR, at the ideal instance, read at (b, p, q). -/
theorem matmul_zero_apply {φ₁ φ₂ : FTy} (prec : Option ContractPrecision)
    (l : FVec Ideal ⟨3, ![B, M, K]⟩ φ₁) (r : FVec Ideal ⟨3, ![B, N, K]⟩ φ₂) (b : Fin B) (p : Fin M) (q : Fin N) :
    FloatOps.matmul (batchTransDims B M K N wf) prec l r (constant ⟨3, ![B, M, N]⟩ .f32 0x00000000#32) (ix3 b p q)
      = ∑ k : Fin K, l (ix3 b p k) * r (ix3 b q k) := by
  rw [Ideal.matmul_constant_zero_apply]
  exact sum_contr wf (fun x y => l x * r y) b p q

/-- THE HOST'S dot_general, at the ideal instance, read at (b, p, q). -/
theorem dotGeneral_apply {φ₁ φ₂ : FTy} (prec : Option ContractPrecision) (sched : HostSchedule)
    (l : FVec Ideal ⟨3, ![B, M, K]⟩ φ₁) (r : FVec Ideal ⟨3, ![B, N, K]⟩ φ₂) (b : Fin B) (p : Fin M) (q : Fin N) :
    FloatOps.dotGeneral (batchTransDims B M K N wf) prec sched l r (ix3 b p q)
      = ∑ k : Fin K, l (ix3 b p k) * r (ix3 b q k) := by
  rw [Ideal.dotGeneral_apply]
  exact sum_contr wf (fun x y => l x * r y) b p q

end

end Cert.LibBatchTransDot

end
-- ==== Proof.KProj.lean ====
/-
  The second (batched) product, the flattening to patches and the projection of the kernel body, read at an index.
-/
import proofs.«402038_j1297080123683_2_alg».proof.Proof.Gen.KernelIdeal.Skeleton
import proofs.«402038_j1297080123683_2_alg».proof.Proof.Spec
import proofs.«402038_j1297080123683_2_alg».proof.Proof.LibPlainDot
import proofs.«402038_j1297080123683_2_alg».proof.Proof.LibBatchTransDot
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PatchValue

open Idealize.ShloMosaic Idealize.ShloMosaic.ValueIdx Cert.KernelIdeal Cert.KernelIdeal.Gen Cert.PatchSpec

/-- One column slice of the [3136, 672] array from column o, reshaped to [196, 16, 224]: entry (n, p, w) is the
    array's entry (n * 16 + p, o + w). -/
private theorem piece_apply {α : Type} (o : Nat) (x : S3136x672.Idx → α) (hs : S3136x672.Slices ![0, o] S3136x224)
    (hc : S3136x224.ShapeCasts S196x16x224) (n : Fin 196) (p : Fin 16) (w : Fin 224)
    (r : Fin 3136) (hr : r.val = n.val * 16 + p.val) (col : Fin 672) (hcol : col.val = o + w.val) :
    shapeCast S196x16x224 (extractStridedSlice S3136x224 ![0, o] x hs) hc (ix3 n p w) = x (ix2 r col) := by
  refine (shapeCast_apply _ hc (ix3 n p w) (ix2 r w) ?_).trans (slice2_axis1_apply o x hs r w col hcol)
  rw [Shape.rowMajor_val_two, Shape.rowMajor_val_three]
  show r.val * 224 + w.val = (n.val * 16 + p.val) * 224 + w.val
  rw [hr]

/-- The three reshaped column slices, in the order they are stacked. -/
private abbrev pieces {α : Type} (x : S3136x672.Idx → α)
    (h0 : S3136x672.Slices ![0, 0] S3136x224) (h1 : S3136x672.Slices ![0, 224] S3136x224)
    (h2 : S3136x672.Slices ![0, 448] S3136x224) (hc : S3136x224.ShapeCasts S196x16x224) :
    List ((s : Shape) × (s.Idx → α)) :=
  [⟨S196x16x224, shapeCast S196x16x224 (extractStridedSlice S3136x224 ![0, 0] x h0) hc⟩,
   ⟨S196x16x224, shapeCast S196x16x224 (extractStridedSlice S3136x224 ![0, 224] x h1) hc⟩,
   ⟨S196x16x224, shapeCast S196x16x224 (extractStridedSlice S3136x224 ![0, 448] x h2) hc⟩]

/-- The three reshaped column slices stacked along axis 1: entry (n, c * 16 + p, w) of the [196, 48, 224] array is
    the [3136, 672] array's entry (n * 16 + p, c * 224 + w). -/
private theorem rows_apply {α : Type} (x : S3136x672.Idx → α)
    (h0 : S3136x672.Slices ![0, 0] S3136x224) (h1 : S3136x672.Slices ![0, 224] S3136x224)
    (h2 : S3136x672.Slices ![0, 448] S3136x224) (hc : S3136x224.ShapeCasts S196x16x224)
    (hcat : Shape.Concatenates [S196x16x224, S196x16x224, S196x16x224] S196x48x224 1)
    (n : Fin 196) (c : Fin 3) (p : Fin 16) (w : Fin 224)
    (m : Fin 48) (hm : m.val = c.val * 16 + p.val)
    (r : Fin 3136) (hr : r.val = n.val * 16 + p.val) (col : Fin 672) (hcol : col.val = c.val * 224 + w.val) :
    concatenate S196x48x224 1 (pieces x h0 h1 h2 hc) hcat (ix3 n m w) = x (ix2 r col) := by
  have hoff : ∀ b : Fin S196x16x224.rank, b.cast (rfl : S196x16x224.rank = S196x48x224.rank) ≠ (1 : Fin S196x48x224.rank) →
      ((ix3 n p w : S196x16x224.Idx) b).val = ((ix3 n m w : S196x48x224.Idx) (b.cast rfl)).val := fun b hb => by
    match b with
    | ⟨0, _⟩ => rfl
    | ⟨1, _⟩ => exact absurd rfl hb
    | ⟨2, _⟩ => rfl
  have hc3 : c.val = 0 ∨ c.val = 1 ∨ c.val = 2 := by have := c.isLt; omega
  rcases hc3 with h | h | h
  · refine (concatenate_apply_piece (1 : Fin S196x48x224.rank) (pieces x h0 h1 h2 hc) hcat (ix3 n m w) 0
      (by show 0 < 3; decide) S196x16x224 _ rfl rfl 0 rfl (ix3 n p w) hoff ?_).trans
      (piece_apply 0 x h0 hc n p w r hr col ?_)
    · show 0 + p.val = m.val
      omega
    · omega
  · refine (concatenate_apply_piece (1 : Fin S196x48x224.rank) (pieces x h0 h1 h2 hc) hcat (ix3 n m w) 1
      (by show 1 < 3; decide) S196x16x224 _ rfl rfl 16 rfl (ix3 n p w) hoff ?_).trans
      (piece_apply 224 x h1 hc n p w r hr col ?_)
    · show 16 + p.val = m.val
      omega
    · omega
  · refine (concatenate_apply_piece (1 : Fin S196x48x224.rank) (pieces x h0 h1 h2 hc) hcat (ix3 n m w) 2
      (by show 2 < 3; decide) S196x16x224 _ rfl rfl 32 rfl (ix3 n p w) hoff ?_).trans
      (piece_apply 448 x h2 hc n p w r hr col ?_)
    · show 32 + p.val = m.val
      omega
    · omega

/-- The [196, 48, 16] array flattened to [196, 768]: entry (n, k) is the entry (n, channel of k * 16 + row of k,
    column of k), since k = (channel * 16 + row) * 16 + column. -/
private theorem flat_apply {α : Type} (y : S196x48x16.Idx → α) (h : S196x48x16.ShapeCasts S196x768) (n : Fin 196)
    (k : Fin 768) (m : Fin 48) (hm : m.val = (kc k).val * 16 + (kp k).val) :
    shapeCast S196x768 y h (ix2 n k) = y (ix3 n m (kq k)) := by
  refine shapeCast_apply y h (ix2 n k) (ix3 n m (kq k)) ?_
  rw [Shape.rowMajor_val_two, Shape.rowMajor_val_three]
  show (n.val * 48 + m.val) * 16 + (kq k).val = n.val * 768 + k.val
  have := k_eq k
  omega

/-- The bias row reshaped to a vector and back and repeated over the 196 rows: entry (n, d) is the bias at (0, d). -/
private theorem bias_apply {α : Type} (b : S1x384.Idx → α) (h1 : S1x384.ShapeCasts S384) (h2 : S384.ShapeCasts S1x384)
    (h3 : S1x384.Broadcasts S196x384) (n : Fin 196) (d : Fin 384) :
    broadcastTo S196x384 (shapeCast S1x384 (shapeCast S384 b h1) h2) h3 (ix2 n d) = b (ix2 (0 : Fin 1) d) :=
  (broadcastTo_1b_ab_apply _ h3 n d).trans
    ((shapeCast_a_1a_apply _ h2 (0 : Fin 1) d).trans (shapeCast_1a_a_apply b h1 d))

/-- The stored block at (0, n, d): the sum over the 768 patch positions k of (the sum over the 224 columns w of the
    first product's entry (n * 16 + row of k, channel of k * 224 + w) times the column selector's entry
    (n, column of k, w)) times the weight (k, d), plus the bias (0, d). -/
theorem pay1_apply (v26 : FVec Ideal S196x16x224 .bf16) (v39 : FVec Ideal S3136x672 .bf16)
    (v50 : FVec Ideal S768x384 .bf16) (v53 : FVec Ideal S1x384 .f32) (n : Fin 196) (d : Fin 384) :
    k0_pay1 (F := Ideal) v26 v39 v50 v53 (ix3 (0 : Fin 1) n d)
      = (∑ k : Fin 768,
          (∑ w : Fin 224,
            v39 (ix2 (⟨n.val * 16 + (kp k).val, by have := n.isLt; have := (kp k).isLt; omega⟩ : Fin 3136)
                     (⟨(kc k).val * 224 + w.val, by have := (kc k).isLt; have := w.isLt; omega⟩ : Fin 672))
              * v26 (ix3 n (kq k) w))
            * v50 (ix2 k d))
        + v53 (ix2 (0 : Fin 1) d) := by
  unfold k0_pay1
  -- the last reshape only adds the unit axis; then the sum of the projection and the bias row
  refine (shapeCast_ab_1ab_apply _ _ (0 : Fin 1) n d).trans ?_
  refine (addf_apply _ _ (ix2 n d)).trans ?_
  refine congrArg₂ (· + ·) ?_ (bias_apply v53 _ _ _ n d)
  -- the projection: a sum over the 768 patch positions
  refine (Cert.LibPlainDot.matmul_zero_apply Facts₀.dot_S196x768_S768x384_S196x384_1_0_0_1_n_n_wf none _ _ n d).trans ?_
  refine Finset.sum_congr rfl fun k _ => ?_
  refine congrArg₂ (· * ·) ?_ (congrFun (shapeCast_self v50 _) (ix2 k d))
  -- patch position k of row n is the batched product's entry (n, channel * 16 + row, column)
  refine (truncf_apply (φ := FTy.f32) (ψ := FTy.bf16) _ Facts₀.bitsLt_bf16_f32 (ix2 n k)).trans ?_
  refine (flat_apply _ _ n k ⟨(kc k).val * 16 + (kp k).val, by have := (kc k).isLt; have := (kp k).isLt; omega⟩ rfl).trans ?_
  refine (Cert.LibBatchTransDot.matmul_zero_apply Facts₀.dot_S196x48x224_S196x16x224_S196x48x16_2_2_1_1_0_0_wf none _ v26 n _
    (kq k)).trans ?_
  refine Finset.sum_congr rfl fun w _ => ?_
  refine congrArg (· * v26 (ix3 n (kq k) w)) ?_
  exact rows_apply v39 _ _ _ _ _ n (kc k) (kp k) w _ rfl _ rfl _ rfl

end Cert.KernelIdeal.PatchValue

end
-- ==== Proof.KBlock.lean ====
/-
  What one grid point stores: the block of tokens of one image, as a function of the point's input blocks.
-/
import proofs.«402038_j1297080123683_2_alg».proof.Proof.Gen.KernelIdeal.Frame
import proofs.«402038_j1297080123683_2_alg».proof.Proof.KSel
import proofs.«402038_j1297080123683_2_alg».proof.Proof.KProj
import proofs.«402038_j1297080123683_2_alg».proof.Proof.Spec

noncomputable section

namespace Cert.KernelIdeal.PatchValue

open Idealize.ShloMosaic Idealize.ShloMosaic.ValueIdx Cert.KernelIdeal Cert.KernelIdeal.Gen Cert.PatchSpec

theorem hz2 : (![0, 0] : Fin 2 → Nat) = fun _ => 0 := funext fun a => by fin_cases a <;> rfl
theorem hz3 : (![0, 0, 0] : Fin 3 → Nat) = fun _ => 0 := funext fun a => by fin_cases a <;> rfl

/-- Channel c's plane of the image block, read through the body's three loads. -/
theorem chan_ld (x0 : FVec Ideal S1x3x224x224 .f32) (c : Fin 3) (h w : Fin 224) :
    chan (View.ld (Val := Elt Ideal) (e' := .f32) x0 r0_1 : FVec Ideal S1x1x224x224 .f32)
        (View.ld (Val := Elt Ideal) (e' := .f32) x0 r0_2 : FVec Ideal S1x1x224x224 .f32)
        (View.ld (Val := Elt Ideal) (e' := .f32) x0 r0_3 : FVec Ideal S1x1x224x224 .f32) c (ix4 (0 : Fin 1) (0 : Fin 1) h w)
      = x0 (ix4 (0 : Fin 1) c h w) := by
  match c with
  | ⟨0, _⟩ =>
    show x0 (r0_1.idx (ix4 (0 : Fin 1) (0 : Fin 1) h w)) = _
    refine congrArg x0 (funext fun a => Fin.ext ?_)
    match a with
    | ⟨0, _⟩ => rfl
    | ⟨1, _⟩ => rfl
    | ⟨2, _⟩ => show 0 + 1 * h.val = h.val; omega
    | ⟨3, _⟩ => show 0 + 1 * w.val = w.val; omega
  | ⟨1, _⟩ =>
    show x0 (r0_2.idx (ix4 (0 : Fin 1) (0 : Fin 1) h w)) = _
    refine congrArg x0 (funext fun a => Fin.ext ?_)
    match a with
    | ⟨0, _⟩ => rfl
    | ⟨1, _⟩ => rfl
    | ⟨2, _⟩ => show 0 + 1 * h.val = h.val; omega
    | ⟨3, _⟩ => show 0 + 1 * w.val = w.val; omega
  | ⟨2, _⟩ =>
    show x0 (r0_3.idx (ix4 (0 : Fin 1) (0 : Fin 1) h w)) = _
    refine congrArg x0 (funext fun a => Fin.ext ?_)
    match a with
    | ⟨0, _⟩ => rfl
    | ⟨1, _⟩ => rfl
    | ⟨2, _⟩ => show 0 + 1 * h.val = h.val; omega
    | ⟨3, _⟩ => show 0 + 1 * w.val = w.val; omega

/-- THE STORED BLOCK at (0, n, d): the 768 elements of patch n of the point's image — channel c, row ys[n] + p,
    column xs[n] + q at flat position k — times column d of the weights, plus the bias. The two selector products
    each keep one term of their sums. -/
theorem out0_5_apply (x0 : FVec Ideal S1x3x224x224 .f32) (x1 x2 : IVec S1x196x1 32) (x3 : FVec Ideal S768x384 .bf16)
    (x4 : FVec Ideal S1x384 .f32) (n : Fin 196) (d : Fin 384)
    (h1 : (x1 (ix3 (0 : Fin 1) n (0 : Fin 1))).toNat ≤ 208) (h2 : (x2 (ix3 (0 : Fin 1) n (0 : Fin 1))).toNat ≤ 208) :
    out0_5 (F := Ideal) x0 x1 x2 x3 x4 (ix3 (0 : Fin 1) n d)
      = (∑ k : Fin 768, x0 (ix4 (0 : Fin 1) (kc k) (pix (x1 (ix3 (0 : Fin 1) n (0 : Fin 1))) (kp k))
            (pix (x2 (ix3 (0 : Fin 1) n (0 : Fin 1))) (kq k))) * x3 (ix2 k d))
        + x4 (ix2 (0 : Fin 1) d) := by
  unfold out0_5
  rw [View.canon_unit_zero hz3]
  simp only [View.ld_unit_zero (S := S1x196x1) hz3, View.ld_unit_zero (S := S768x384) hz2, View.ld_unit_zero (S := S1x384) hz2]
  rw [pay1_apply]
  congr 1
  refine Finset.sum_congr rfl fun k _ => ?_
  congr 1
  have e : ∀ w : Fin 224,
      k0_pay3 (F := Ideal) x1 (View.ld x0 r0_1) (View.ld x0 r0_2) (View.ld x0 r0_3)
          (ix2 (⟨n.val * 16 + (kp k).val, by have := n.isLt; have := (kp k).isLt; omega⟩ : Fin 3136)
               (⟨(kc k).val * 224 + w.val, by have := (kc k).isLt; have := w.isLt; omega⟩ : Fin 672))
        * k0_pay2 (F := Ideal) x2 (ix3 n (kq k) w)
      = if pix (x2 (ix3 (0 : Fin 1) n (0 : Fin 1))) (kq k) = w
          then x0 (ix4 (0 : Fin 1) (kc k) (pix (x1 (ix3 (0 : Fin 1) n (0 : Fin 1))) (kp k)) w) else 0 := by
    intro w
    rw [pay3_apply x1 _ _ _ n (kp k) (kc k) w h1, pay2_apply x2 n (kq k) w h2, chan_ld]
    split
    · exact mul_one _
    · exact mul_zero _
  rw [Finset.sum_congr rfl fun w _ => e w, Finset.sum_ite_eq Finset.univ, if_pos (Finset.mem_univ _)]

end Cert.KernelIdeal.PatchValue

end
-- ==== Proof.KHost.lean ====
/-
  The arrays the kernel region finds: the two offset arrays clamped and reshaped, the weights with their format
  changed, the bias as a one-row matrix.
-/
import proofs.«402038_j1297080123683_2_alg».proof.Proof.Gen.KernelIdeal.Frame
import proofs.«402038_j1297080123683_2_alg».proof.Proof.PreRange
import Idealize.ShloMosaic.Lib.StableHlo.Run
import Idealize.ShloMosaic.Lib.ValueIdx
import Idealize.ShloMosaic.Lib.Pipeline.Value

noncomputable section

namespace Cert.KernelIdeal.PatchValue

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ)

/-- A [128, 196] array cast to [128, 196, 1] reads, at (b, n, 0), the operand at (b, n): the two row-major positions agree. -/
private theorem cast_unit_apply {α : Type} (x : S128x196.Idx → α) (h : S128x196.ShapeCasts S128x196x1) (b : Fin 128) (n : Fin 196) :
    shapeCast S128x196x1 x h (ix3 b n (0 : Fin 1)) = x (ix2 b n) :=
  shapeCast_apply x h _ _ (by
    rw [Shape.rowMajor_val_two, Shape.rowMajor_val_three]
    show b.val * 196 + n.val = (b.val * 196 + n.val) * 1 + 0
    omega)

/-- A [384] array cast to [1, 384] reads, at (0, d), the operand at d: the two row-major positions agree. -/
private theorem cast_row_apply {α : Type} (x : S384.Idx → α) (h : S384.ShapeCasts S1x384) (d : Fin 384) :
    shapeCast S1x384 x h (ix2 (0 : Fin 1) d) = x (ix1 d) :=
  shapeCast_apply x h _ _ (by
    rw [Shape.rowMajor_val_one, Shape.rowMajor_val_two]
    show d.val = 0 * 384 + d.val
    omega)

/-- The clamp of an offset array to [0, 208], as the operations before the region spell it, read at an index. -/
private theorem clip_apply (v : S128x196.Idx → BitVec 32) (hv : ∀ i, (v i).toNat ≤ 208) (i : S128x196.Idx) :
    minsi (broadcastInDim S128x196 ![] bcast_S_S128x196 (constantI S_ 32 208#32))
      (maxsi (broadcastInDim S128x196 ![] bcast_S_S128x196 (constantI S_ 32 0#32)) v) i = v i := by
  have h0 : 0 < S_.numel := by decide
  have e208 : broadcastInDim S128x196 ![] bcast_S_S128x196 (constantI S_ 32 208#32) i = 208#32 :=
    StableHlo.Predicate.bcast_scalar bcast_S_S128x196 h0 (constantI S_ 32 208#32) i
  have e0 : broadcastInDim S128x196 ![] bcast_S_S128x196 (constantI S_ 32 0#32) i = 0#32 :=
    StableHlo.Predicate.bcast_scalar bcast_S_S128x196 h0 (constantI S_ 32 0#32) i
  show IntOp.minsi (broadcastInDim S128x196 ![] bcast_S_S128x196 (constantI S_ 32 208#32) i)
      (IntOp.maxsi (broadcastInDim S128x196 ![] bcast_S_S128x196 (constantI S_ 32 0#32) i) (v i)) = v i
  rw [e208, e0]
  exact Cert.PatchPre.clip_word (v i) (hv i)

/-- What the operations before the region leave in main_v2: the clamp of ys, reshaped. -/
private theorem V_main_v2_eq (c : Dev nD) :
    (V m c main_v2 : S128x196x1.Idx → BitVec 32)
      = shapeCast S128x196x1
          (minsi (broadcastInDim S128x196 ![] bcast_S_S128x196 (constantI S_ 32 208#32))
            (maxsi (broadcastInDim S128x196 ![] bcast_S_S128x196 (constantI S_ 32 0#32))
              (m ((c : Thread nD τ).loc main_arg1) : S128x196.Idx → BitVec 32)))
          shapeCasts_S128x196_S128x196x1 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- What they leave in main_v3: the clamp of xs, reshaped. -/
private theorem V_main_v3_eq (c : Dev nD) :
    (V m c main_v3 : S128x196x1.Idx → BitVec 32)
      = shapeCast S128x196x1
          (minsi (broadcastInDim S128x196 ![] bcast_S_S128x196 (constantI S_ 32 208#32))
            (maxsi (broadcastInDim S128x196 ![] bcast_S_S128x196 (constantI S_ 32 0#32))
              (m ((c : Thread nD τ).loc main_arg2) : S128x196.Idx → BitVec 32)))
          shapeCasts_S128x196_S128x196x1 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- With ys in [0, 208] the clamp is the identity, and the reshaped array reads ys. -/
theorem V_main_v2_apply (c : Dev nD)
    (hy : ∀ i, ((m ((c : Thread nD τ).loc main_arg1) : S128x196.Idx → BitVec 32) i).toNat ≤ 208) (b : Fin 128) (n : Fin 196) :
    (V m c main_v2 : S128x196x1.Idx → BitVec 32) (ix3 b n (0 : Fin 1))
      = (m ((c : Thread nD τ).loc main_arg1) : S128x196.Idx → BitVec 32) (ix2 b n) := by
  rw [V_main_v2_eq m c, cast_unit_apply]
  exact clip_apply _ hy (ix2 b n)

/-- The same for xs. -/
theorem V_main_v3_apply (c : Dev nD)
    (hx : ∀ i, ((m ((c : Thread nD τ).loc main_arg2) : S128x196.Idx → BitVec 32) i).toNat ≤ 208) (b : Fin 128) (n : Fin 196) :
    (V m c main_v3 : S128x196x1.Idx → BitVec 32) (ix3 b n (0 : Fin 1))
      = (m ((c : Thread nD τ).loc main_arg2) : S128x196.Idx → BitVec 32) (ix2 b n) := by
  rw [V_main_v3_eq m c, cast_unit_apply]
  exact clip_apply _ hx (ix2 b n)

/-- A change of float format is the identity at the ideal instance: the weights the region finds are the argument's. -/
theorem V_main_v4_eq (c : Dev nD) :
    (V m c main_v4 : S768x384.Idx → EReal) = (m ((c : Thread nD τ).loc main_arg3) : S768x384.Idx → EReal) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- What the operations before the region leave in main_v5: the bias, reshaped. -/
private theorem V_main_v5_eq (c : Dev nD) :
    (V m c main_v5 : S1x384.Idx → EReal)
      = shapeCast S1x384 (m ((c : Thread nD τ).loc main_arg4) : S384.Idx → EReal) shapeCasts_S384_S1x384 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The bias as a one-row matrix. -/
theorem V_main_v5_apply (c : Dev nD) (d : Fin 384) :
    (V m c main_v5 : S1x384.Idx → EReal) (ix2 (0 : Fin 1) d)
      = (m ((c : Thread nD τ).loc main_arg4) : S384.Idx → EReal) (ix1 d) := by
  rw [V_main_v5_eq m c]
  exact cast_row_apply _ _ d

end Cert.KernelIdeal.PatchValue

end
-- ==== Proof.KArray.lean ====
/-
  The token array after the kernel's run: every grid point's block is the specification's block of tokens, and
  the 128 blocks fill the array.
-/
import proofs.«402038_j1297080123683_2_alg».proof.Proof.Gen.KernelIdeal.Frame
import proofs.«402038_j1297080123683_2_alg».proof.Proof.KBlock
import proofs.«402038_j1297080123683_2_alg».proof.Proof.KHost
import proofs.«402038_j1297080123683_2_alg».proof.Proof.Spec
import Idealize.ShloMosaic.Lib.Pipeline.Value

set_option maxRecDepth 16384

noncomputable section

namespace Cert.KernelIdeal.PatchValue

open Idealize.ShloMosaic Idealize.ShloMosaic.TcCoe Idealize.SL.Sem Idealize.ShloMosaic.ValueIdx Cert.KernelIdeal Cert.KernelIdeal.Gen Cert.PatchSpec
open Idealize.ShloMosaic.Pipeline (Dat)

variable (m : (ℓ : Loc nD τ sig) → Buf (Elt Ideal) ℓ)

/-- The printed index maps over the grid: the image, the two offset arrays and the tokens move one block per point
    along the batch axis, the weights and the bias stay. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = t.val ∧ win0_5.index t (1 : Fin 3) = 0 ∧ win0_5.index t (2 : Fin 3) = 0) :=
  (by decide +kernel : ∀ t : Fin grid0.N, _)

/-- The image of point t. -/
abbrev tb (t : Fin cfg0.N) : Fin 128 := ⟨t.val, lt_of_lt_of_eq t.isLt N_0⟩

/-- The input blocks of point t over their literal types. -/
abbrev xblk (c : Dev nD) (t : Fin cfg0.N) : FVec Ideal S1x3x224x224 .f32 := iblk m c 0 t
abbrev ysblk (c : Dev nD) (t : Fin cfg0.N) : IVec S1x196x1 32 := iblk m c 1 t
abbrev xsblk (c : Dev nD) (t : Fin cfg0.N) : IVec S1x196x1 32 := iblk m c 2 t
abbrev wblk (c : Dev nD) (t : Fin cfg0.N) : FVec Ideal S768x384 .bf16 := iblk m c 3 t
abbrev bblk (c : Dev nD) (t : Fin cfg0.N) : FVec Ideal S1x384 .f32 := iblk m c 4 t

/-- The image block of point t is image t of the batch. -/
theorem xblk_apply (c : Dev nD) (t : Fin cfg0.N) (ch : Fin 3) (h w : Fin 224) :
    xblk m c t (ix4 (0 : Fin 1) ch h w) = (V m c main_arg0 : S128x3x224x224.Idx → EReal) (ix4 (tb t) ch h w) := by
  obtain ⟨⟨e0, e1, e2, e3⟩, -⟩ := idx_facts t
  show (V m c main_arg0 : S128x3x224x224.Idx → EReal) (((cfg0.win 0).blk t).view.emb (ix4 (0 : Fin 1) ch h w)) = _
  refine congrArg (V m c main_arg0 : S128x3x224x224.Idx → EReal) (funext fun a => Fin.ext ?_)
  match a with
  | ⟨0, _⟩ => show win0_0.index t (0 : Fin 4) * 1 + 1 * 0 = t.val; omega
  | ⟨1, _⟩ => show win0_0.index t (1 : Fin 4) * 3 + 1 * ch.val = ch.val; omega
  | ⟨2, _⟩ => show win0_0.index t (2 : Fin 4) * 224 + 1 * h.val = h.val; omega
  | ⟨3, _⟩ => show win0_0.index t (3 : Fin 4) * 224 + 1 * w.val = w.val; omega

/-- The offset blocks of point t are rows t of the clamped, reshaped offset arrays. -/
theorem ysblk_apply (c : Dev nD) (t : Fin cfg0.N) (n : Fin 196) :
    ysblk m c t (ix3 (0 : Fin 1) n (0 : Fin 1)) = (V m c main_v2 : S128x196x1.Idx → BitVec 32) (ix3 (tb t) n (0 : Fin 1)) := by
  obtain ⟨-, ⟨e0, e1, e2⟩, -⟩ := idx_facts t
  show (V m c main_v2 : S128x196x1.Idx → BitVec 32) (((cfg0.win 1).blk t).view.emb (ix3 (0 : Fin 1) n (0 : Fin 1))) = _
  refine congrArg (V m c main_v2 : S128x196x1.Idx → BitVec 32) (funext fun a => Fin.ext ?_)
  match a with
  | ⟨0, _⟩ => show win0_1.index t (0 : Fin 3) * 1 + 1 * 0 = t.val; omega
  | ⟨1, _⟩ => show win0_1.index t (1 : Fin 3) * 196 + 1 * n.val = n.val; omega
  | ⟨2, _⟩ => show win0_1.index t (2 : Fin 3) * 1 + 1 * 0 = 0; omega

theorem xsblk_apply (c : Dev nD) (t : Fin cfg0.N) (n : Fin 196) :
    xsblk m c t (ix3 (0 : Fin 1) n (0 : Fin 1)) = (V m c main_v3 : S128x196x1.Idx → BitVec 32) (ix3 (tb t) n (0 : Fin 1)) := by
  obtain ⟨-, -, ⟨e0, e1, e2⟩, -⟩ := idx_facts t
  show (V m c main_v3 : S128x196x1.Idx → BitVec 32) (((cfg0.win 2).blk t).view.emb (ix3 (0 : Fin 1) n (0 : Fin 1))) = _
  refine congrArg (V m c main_v3 : S128x196x1.Idx → BitVec 32) (funext fun a => Fin.ext ?_)
  match a with
  | ⟨0, _⟩ => show win0_2.index t (0 : Fin 3) * 1 + 1 * 0 = t.val; omega
  | ⟨1, _⟩ => show win0_2.index t (1 : Fin 3) * 196 + 1 * n.val = n.val; omega
  | ⟨2, _⟩ => show win0_2.index t (2 : Fin 3) * 1 + 1 * 0 = 0; omega

/-- The weight block of every point is the whole weight matrix. -/
theorem wblk_apply (c : Dev nD) (t : Fin cfg0.N) (k : Fin 768) (d : Fin 384) :
    wblk m c t (ix2 k d) = (V m c main_v4 : S768x384.Idx → EReal) (ix2 k d) := by
  obtain ⟨-, -, -, ⟨e0, e1⟩, -⟩ := idx_facts t
  show (V m c main_v4 : S768x384.Idx → EReal) (((cfg0.win 3).blk t).view.emb (ix2 k d)) = _
  refine congrArg (V m c main_v4 : S768x384.Idx → EReal) (funext fun a => Fin.ext ?_)
  match a with
  | ⟨0, _⟩ => show win0_3.index t (0 : Fin 2) * 768 + 1 * k.val = k.val; omega
  | ⟨1, _⟩ => show win0_3.index t (1 : Fin 2) * 384 + 1 * d.val = d.val; omega

/-- The bias block of every point is the whole one-row bias. -/
theorem bblk_apply (c : Dev nD) (t : Fin cfg0.N) (d : Fin 384) :
    bblk m c t (ix2 (0 : Fin 1) d) = (V m c main_v5 : S1x384.Idx → EReal) (ix2 (0 : Fin 1) d) := by
  obtain ⟨-, -, -, -, ⟨e0, e1⟩, -⟩ := idx_facts t
  show (V m c main_v5 : S1x384.Idx → EReal) (((cfg0.win 4).blk t).view.emb (ix2 (0 : Fin 1) d)) = _
  refine congrArg (V m c main_v5 : S1x384.Idx → EReal) (funext fun a => Fin.ext ?_)
  match a with
  | ⟨0, _⟩ => show win0_4.index t (0 : Fin 2) * 1 + 1 * 0 = 0; omega
  | ⟨1, _⟩ => show win0_4.index t (1 : Fin 2) * 384 + 1 * d.val = d.val; omega

/-- The specification's tokens of the argument arrays, as the contents of the token array. -/
abbrev G (c : Dev nD) : Buf (Elt Ideal) ((c : Thread nD τ).loc main_v6) :=
  tokens (m ((c : Thread nD τ).loc main_arg0)) (m ((c : Thread nD τ).loc main_arg1)) (m ((c : Thread nD τ).loc main_arg2))
    (m ((c : Thread nD τ).loc main_arg3)) (m ((c : Thread nD τ).loc main_arg4))

/-- What point t stores, entry by entry: the tokens of image t. -/
theorem stored_apply (c : Dev nD)
    (hy : ∀ i, ((m ((c : Thread nD τ).loc main_arg1) : S128x196.Idx → BitVec 32) i).toNat ≤ 208)
    (hx : ∀ i, ((m ((c : Thread nD τ).loc main_arg2) : S128x196.Idx → BitVec 32) i).toNat ≤ 208)
    (t : Fin cfg0.N) (n : Fin 196) (d : Fin 384) :
    out0_5 (F := Ideal) (xblk m c t) (ysblk m c t) (xsblk m c t) (wblk m c t) (bblk m c t) (ix3 (0 : Fin 1) n d)
      = tokenAt (m ((c : Thread nD τ).loc main_arg0)) (m ((c : Thread nD τ).loc main_arg1)) (m ((c : Thread nD τ).loc main_arg2))
          (m ((c : Thread nD τ).loc main_arg3)) (m ((c : Thread nD τ).loc main_arg4)) (tb t) n d := by
  have ey : ysblk m c t (ix3 (0 : Fin 1) n (0 : Fin 1)) = (m ((c : Thread nD τ).loc main_arg1) : S128x196.Idx → BitVec 32) (ix2 (tb t) n) :=
    (ysblk_apply m c t n).trans (V_main_v2_apply m c hy (tb t) n)
  have ex : xsblk m c t (ix3 (0 : Fin 1) n (0 : Fin 1)) = (m ((c : Thread nD τ).loc main_arg2) : S128x196.Idx → BitVec 32) (ix2 (tb t) n) :=
    (xsblk_apply m c t n).trans (V_main_v3_apply m c hx (tb t) n)
  refine (out0_5_apply (xblk m c t) (ysblk m c t) (xsblk m c t) (wblk m c t) (bblk m c t) n d
    (by rw [ey]; exact hy _) (by rw [ex]; exact hx _)).trans ?_
  rw [ey, ex]
  unfold tokenAt patch
  congr 1
  · refine Finset.sum_congr rfl fun k _ => ?_
    rw [xblk_apply, wblk_apply, V_main_arg0, V_main_v4_eq]
  · rw [bblk_apply, V_main_v5_apply]

/-- WHAT POINT t WRITES BACK is block t of the specification's tokens. -/
theorem flushed5_eq (c : Dev nD)
    (hy : ∀ i, ((m ((c : Thread nD τ).loc main_arg1) : S128x196.Idx → BitVec 32) i).toNat ≤ 208)
    (hx : ∀ i, ((m ((c : Thread nD τ).loc main_arg2) : S128x196.Idx → BitVec 32) i).toNat ≤ 208)
    (t : Fin cfg0.N) :
    (dats m 0 c).flushed 5 t = ((cfg0.win 5).blk t).view.read (Elt Ideal) (G m c) := by
  show (cfg0.win 5).cut (grid0.coords t) ((dats m 0 c).after 5 t) = _
  rw [after0_5]
  obtain ⟨-, -, -, -, -, ⟨e0, e1, e2⟩⟩ := idx_facts t
  funext j
  obtain ⟨a, n, d, rfl⟩ : ∃ (a : Fin 1) (n : Fin 196) (d : Fin 384), j = ix3 a n d := ⟨j 0, j 1, j 2, eq_ix3 j⟩
  obtain rfl : a = 0 := Subsingleton.elim _ _
  show out0_5 (F := Ideal) (xblk m c t) (ysblk m c t) (xsblk m c t) (wblk m c t) (bblk m c t) (ix3 (0 : Fin 1) n d)
    = G m c (((cfg0.win 5).blk t).view.emb (ix3 (0 : Fin 1) n d))
  rw [stored_apply m c hy hx t n d]
  have hemb : ((cfg0.win 5).blk t).view.emb (ix3 (0 : Fin 1) n d) = (ix3 (tb t) n d : S128x196x384.Idx) := by
    funext b; apply Fin.ext
    match b with
    | ⟨0, _⟩ => show win0_5.index t (0 : Fin 3) * 1 + 1 * 0 = t.val; omega
    | ⟨1, _⟩ => show win0_5.index t (1 : Fin 3) * 196 + 1 * n.val = n.val; omega
    | ⟨2, _⟩ => show win0_5.index t (2 : Fin 3) * 384 + 1 * d.val = d.val; omega
  rw [hemb]
  rfl

/-- THE TOKEN ARRAY after the run is the specification's: block t is written back at point t, and every index lies in
    the block of its image. -/
theorem final5 (c : Dev nD)
    (hy : ∀ i, ((m ((c : Thread nD τ).loc main_arg1) : S128x196.Idx → BitVec 32) i).toNat ≤ 208)
    (hx : ∀ i, ((m ((c : Thread nD τ).loc main_arg2) : S128x196.Idx → BitVec 32) i).toNat ≤ 208) :
    (dats m 0 c).arrAt 5 cfg0.N = G m c :=
  (dats m 0 c).arrAt_eq_of_cover 5 (G m c) (fun t _ => flushed5_eq m c hy hx t) fun i => by
    have hi0 : (i 0).val < 128 := (i 0).isLt
    have hi1 : (i 1).val < 196 := (i 1).isLt
    have hi2 : (i 2).val < 384 := (i 2).isLt
    let t : Fin cfg0.N := ⟨(i 0).val, by rw [show cfg0.N = 128 from N_0]; exact hi0⟩
    obtain ⟨-, -, -, -, -, ⟨e0, e1, e2⟩⟩ := idx_facts t
    refine ⟨t, flush0_5 t, ?_⟩
    show i ∈ ((View.whole main_v6).slice (win0_5.rect t)).set
    rw [View.set_slice_whole, Rect.mem_set_unit]
    intro a
    match a with
    | ⟨0, _⟩ => show win0_5.index t (0 : Fin 3) * 1 ≤ (i 0).val ∧ (i 0).val < win0_5.index t (0 : Fin 3) * 1 + 1; rw [e0]; show (i 0).val * 1 ≤ (i 0).val ∧ (i 0).val < (i 0).val * 1 + 1; omega
    | ⟨1, _⟩ => show win0_5.index t (1 : Fin 3) * 196 ≤ (i 1).val ∧ (i 1).val < win0_5.index t (1 : Fin 3) * 196 + 196; omega
    | ⟨2, _⟩ => show win0_5.index t (2 : Fin 3) * 384 ≤ (i 2).val ∧ (i 2).val < win0_5.index t (2 : Fin 3) * 384 + 384; omega

end Cert.KernelIdeal.PatchValue

end
-- ==== Proof.KRun.lean ====
/-
  The kernel program's run, read: the token array ends at the specification's tokens, the position array at the
  two offset arrays laid side by side, the arguments unchanged.
-/
import proofs.«402038_j1297080123683_2_alg».proof.Proof.Gen.KernelIdeal.Frame
import proofs.«402038_j1297080123683_2_alg».proof.Proof.KArray
import Idealize.ShloMosaic.Lib.StableHlo.Run

noncomputable section

namespace Cert.KernelIdeal.PatchValue

open Idealize.ShloMosaic Idealize.ShloMosaic.TcCoe Idealize.SL.Sem Idealize.ShloMosaic.ValueIdx Cert.KernelIdeal Cert.KernelIdeal.Gen Cert.PatchSpec
open Idealize.ShloMosaic.Pipeline (Dat)

variable (m : (ℓ : Loc nD τ sig) → Buf (Elt Ideal) ℓ) (ρ : Dev nD → PrngReg)

/-- The position array: ys and xs, each as a last-axis column, joined along the last axis. -/
abbrev positions (y x : IVec S128x196 32) : IVec S128x196x2 32 :=
  concatenate S128x196x2 2
    [⟨S128x196x1, broadcastInDim S128x196x1 ![0, 1] bcast_S128x196_S128x196x1_0_1 y⟩,
     ⟨S128x196x1, broadcastInDim S128x196x1 ![0, 1] bcast_S128x196_S128x196x1_0_1 x⟩]
    concatenates_S128x196x1_S128x196x1_S128x196x2_d2

/-- The three host operations after the region build the position array from the two offset arguments, which
    neither the region nor the operations before it touch. -/
theorem tail_v9 (c : Dev nD) :
    Pipeline.afterTail₀ cfgs (dats m) 0 (V0 m) [hostOps1] c main_v9
      = positions (m ((c : Thread nD τ).loc main_arg1)) (m ((c : Thread nD τ).loc main_arg2)) := by
  unfold Pipeline.afterTail₀
  show StableHlo.after hostOps1 _ (Proc.devRef .tc main_v9) = _
  after_results
  rw [Pipeline.withArrays_of_ne _ c (V0 m c) _ main_arg1 (by exact (by decide : ∀ w, Pipeline.arrRef spec0 w ≠ main_arg1)),
    Pipeline.withArrays_of_ne _ c (V0 m c) _ main_arg2 (by exact (by decide : ∀ w, Pipeline.arrRef spec0 w ≠ main_arg2))]
  show positions (V m c main_arg1) (V m c main_arg2) = _
  rw [V_main_arg1, V_main_arg2]

/-- THE RUN: under offsets in [0, 208] every weakly fair execution of the kernel's program ends with the token array
    at the specification's tokens of the arguments and the position array at the offsets side by side. -/
theorem run
    (hy : ∀ (c : Dev nD) i, ((m ((c : Thread nD τ).loc main_arg1) : S128x196.Idx → BitVec 32) i).toNat ≤ 208)
    (hx : ∀ (c : Dev nD) i, ((m ((c : Thread nD τ).loc main_arg2) : S128x196.Idx → BitVec 32) i).toNat ≤ 208) :
    θ_run defs (onTc (τ := τ) (main (F := Ideal))) ⟨m, fun _ => 0, ρ⟩ fun r => ∀ c : Dev nD,
      r.2.mem ((c.tc : Thread nD τ).loc main_v6) = G m c
      ∧ r.2.mem ((c.tc : Thread nD τ).loc main_v9)
          = positions (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).1 5).trans (final5 m c (hy c) (hx c)),
      ((h c).2 main_v9 (Pipeline.mem_restRefs_of main_v9 (by decide) (by decide))).trans (tail_v9 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.PatchValue

end
-- ==== Proof.lean ====
/-
  The certificate of the patch-embedding kernel against its reference, over the extended reals.

  Both programs take an image batch x [128, 3, 224, 224], per image 196 patch offsets (ys, xs), a weight matrix
  W [768, 384] and a bias, and return the tokens x-patches · W + bias together with the offsets stacked as positions.
  The reference gathers each 16 x 16 patch of each channel through a flat index ys * 224 + xs + p * 224 + q + c * 50176
  into the flattened image. The kernel clamps the offsets to [0, 208] and selects rows and columns by two products
  with 0/1 selector matrices, one image per grid point, then multiplies by the weights. The precondition puts every
  offset in [0, 208] (each patch lies inside its image): there the clamp is the identity, the flat index neither
  wraps nor is clamped, each selector product keeps exactly one term of its sum, and both sides are
  sum over k of x[b, c, ys + p, xs + q] * W[k, d] + bias[d] with k = c * 256 + p * 16 + q. A change of float format
  is the identity at the ideal instance, so the kernel's narrower formats change nothing.

  The frames of the two kernel programs are the generated ones; the reference's frame is its generated run with the
  results dropped; the idealization rewrote nothing, so the preservation claim is trivial.
-/
import proofs.«402038_j1297080123683_2_alg».proof.Defs
import proofs.«402038_j1297080123683_2_alg».proof.Proof.Gen.Kernel
import proofs.«402038_j1297080123683_2_alg».proof.Proof.Gen.Kernel.Skeleton
import proofs.«402038_j1297080123683_2_alg».proof.Proof.Gen.Kernel.Launch
import proofs.«402038_j1297080123683_2_alg».proof.Proof.Gen.Kernel.Points
import proofs.«402038_j1297080123683_2_alg».proof.Proof.Gen.Kernel.Frame
import proofs.«402038_j1297080123683_2_alg».proof.Proof.Gen.KernelIdeal
import proofs.«402038_j1297080123683_2_alg».proof.Proof.Gen.KernelIdeal.Skeleton
import proofs.«402038_j1297080123683_2_alg».proof.Proof.Gen.KernelIdeal.Launch
import proofs.«402038_j1297080123683_2_alg».proof.Proof.Gen.KernelIdeal.Points
import proofs.«402038_j1297080123683_2_alg».proof.Proof.Gen.KernelIdeal.Frame
import proofs.«402038_j1297080123683_2_alg».proof.Proof.Gen.ReferenceIdeal
import proofs.«402038_j1297080123683_2_alg».proof.Proof.Gen.Pre_finite_inputs
import proofs.«402038_j1297080123683_2_alg».proof.Proof.Gen.ReferenceIdeal.Run
import proofs.«402038_j1297080123683_2_alg».proof.Proof.Gen.ReferenceIdeal.Read
import proofs.«402038_j1297080123683_2_alg».proof.Proof.PreRange
import proofs.«402038_j1297080123683_2_alg».proof.Proof.RefValue
import proofs.«402038_j1297080123683_2_alg».proof.Proof.KRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its generated run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the tokens at the specification's tokens of the arguments and the positions at the two
    offset arrays side by side: the kernel by its run read block by block, the reference by its generated run and the
    reading of its gather. -/
theorem algebraic : Cert.algebraic_KernelIdeal_ReferenceIdeal := by
  intro m ρ m' ρ' hpre hagree
  have hr := fun c : Dev Cert.KernelIdeal.nD => Cert.PatchPre.range_of_pre _ _ _ _ _ (hpre c)
  refine ⟨fun c => Cert.KernelIdeal.PatchValue.G m c,
    fun c => Cert.KernelIdeal.PatchValue.positions (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.PatchValue.run m ρ (fun c => (hr c).1) (fun c => (hr c).2), ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v38_eq, (hagree c).1, (hagree c).2.1, (hagree c).2.2.1, (hagree c).2.2.2.1, (hagree c).2.2.2.2]
    exact Cert.ReferenceIdeal.PatchRef.ref_tokens _ _ _ _ _ (hr c).1 (hr c).2
  · rw [(hagree c).2.1, (hagree c).2.2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
